-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x131072x64 : Shape := ⟨3, ![8, 131072, 64]⟩
abbrev S64x64x32x64 : Shape := ⟨4, ![64, 64, 32, 64]⟩
abbrev S64x64 : Shape := ⟨2, ![64, 64]⟩
abbrev S64 : Shape := ⟨1, ![64]⟩
abbrev S_ : Shape := ⟨0, ![]⟩

class Facts : Prop where
  bcast_S_S8x131072x64 : S_.BroadcastsInDim S8x131072x64 (![] : Fin 0 → Fin S8x131072x64.rank)
  reducesTo_S8x131072x64_S_d0_1_2 : S8x131072x64.ReducesTo [0, 1, 2] S_
  h_S_ : 0 < S_.numel
  bcast_S_S64x64x32x64 : S_.BroadcastsInDim S64x64x32x64 (![] : Fin 0 → Fin S64x64x32x64.rank)
  reducesTo_S64x64x32x64_S_d0_1_2_3 : S64x64x32x64.ReducesTo [0, 1, 2, 3] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x131072x64 .f32) (main_arg1 : FVec F S64x64x32x64 .f32) (main_arg2 : FVec F S64x64 .f32) (main_arg3 : FVec F S64 .f32) : IVec S_ 1 :=
  let main_v0 : FVec F S8x131072x64 .f32 := Host.absf main_arg0
  let main_cst : FVec F S_ .f32 := constant S_ .f32 0x7F800000#32
  let main_v1 : FVec F S8x131072x64 .f32 := broadcastInDim S8x131072x64 ![] bcast_S_S8x131072x64 main_cst
  let main_v2 : IVec S8x131072x64 1 := cmpf .olt main_v0 main_v1
  let main_c : IVec S_ 1 := constantI S_ 1 1#1
  let main_v3 : IVec S_ 1 := (fun x v => Host.reduce IntOp.andi x v reducesTo_S8x131072x64_S_d0_1_2 h_S_) main_v2 main_c
  let main_v4 : FVec F S64x64x32x64 .f32 := Host.absf main_arg1
  let main_cst_0 : FVec F S_ .f32 := constant S_ .f32 0x7F800000#32
  let main_v5 : FVec F S64x64x32x64 .f32 := broadcastInDim S64x64x32x64 ![] bcast_S_S64x64x32x64 main_cst_0
  let main_v6 : IVec S64x64x32x64 1 := cmpf .olt main_v4 main_v5
  let main_c_1 : IVec S_ 1 := constantI S_ 1 1#1
  let main_v7 : IVec S_ 1 := (fun x v => Host.reduce IntOp.andi x v reducesTo_S64x64x32x64_S_d0_1_2_3 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x131072x64 : Shape := ⟨3, ![8, 131072, 64]⟩
abbrev S64x64x32x64 : Shape := ⟨4, ![64, 64, 32, 64]⟩
abbrev S64x64 : Shape := ⟨2, ![64, 64]⟩
abbrev S64 : Shape := ⟨1, ![64]⟩
abbrev S131072x64 : Shape := ⟨2, ![131072, 64]⟩
abbrev S1x64 : Shape := ⟨2, ![1, 64]⟩
abbrev S1x8192x64 : Shape := ⟨3, ![1, 8192, 64]⟩
abbrev S8192x64 : Shape := ⟨2, ![8192, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x131072x64, .f32⟩
  | .hbm, ⟨1, _⟩ => ⟨S64x64x32x64, .f32⟩
  | .hbm, ⟨2, _⟩ => ⟨S64x64, .f32⟩
  | .hbm, ⟨3, _⟩ => ⟨S64, .f32⟩
  | .hbm, ⟨4, _⟩ => ⟨S131072x64, .f32⟩
  | .hbm, ⟨5, _⟩ => ⟨S64x64, .f32⟩
  | .hbm, ⟨6, _⟩ => ⟨S1x64, .f32⟩
  | .hbm, ⟨7, _⟩ => ⟨S8x131072x64, .f32⟩
  | .local _ .vmem, ⟨0, _⟩ => ⟨S1x8192x64, .f32⟩
  | .local _ .vmem, ⟨1, _⟩ => ⟨S1x8192x64, .f32⟩
  | .local _ .vmem, ⟨2, _⟩ => ⟨S8192x64, .f32⟩
  | .local _ .vmem, ⟨3, _⟩ => ⟨S8192x64, .f32⟩
  | .local _ .vmem, ⟨4, _⟩ => ⟨S64x64, .f32⟩
  | .local _ .vmem, ⟨5, _⟩ => ⟨S1x64, .f32⟩
  | .local _ .vmem, ⟨6, _⟩ => ⟨S1x8192x64, .f32⟩
  | .local _ .vmem, ⟨7, _⟩ => ⟨S1x8192x64, .f32⟩
  | _, _ => ⟨S8x131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64x64x32x64_S131072x64 : S64x64x32x64.ShapeCasts S131072x64
  transposes_S64x64_S64x64_1_0 : S64x64.Transposes [1, 0] S64x64
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S1x8192x64_S1x8192x64_0_0_0 : ∀ a, (![0, 0, 0] : Fin 3 → Nat) a + S1x8192x64.size a ≤ S1x8192x64.size a
  h_S1x8192x64 : 0 < S1x8192x64.numel
  shapeCasts_S8192x64_S1x8192x64 : S8192x64.ShapeCasts S1x8192x64
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S8x131072x64.size a
  hwx0_0 : ∀ i : grid0.Coords, EltTy.bits .f32 = 32 ∨ (Rect.block (s := S8x131072x64) S1x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S131072x64.size a
  hwx0_1 : ∀ i : grid0.Coords, EltTy.bits .f32 = 32 ∨ (Rect.block (s := S131072x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x64.size a ≤ S8x131072x64.size a
  hwx0_4 : ∀ i : grid0.Coords, EltTy.bits .f32 = 32 ∨ (Rect.block (s := S8x131072x64) S1x8192x64.size (cc0_transform_4 i) (hinb0_4 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x8192x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x131072x64 : Shape := ⟨3, ![8, 131072, 64]⟩
abbrev S64x64x32x64 : Shape := ⟨4, ![64, 64, 32, 64]⟩
abbrev S64x64 : Shape := ⟨2, ![64, 64]⟩
abbrev S64 : Shape := ⟨1, ![64]⟩
abbrev S131072 : Shape := ⟨1, ![131072]⟩
abbrev S_ : Shape := ⟨0, ![]⟩
abbrev S131072x1 : Shape := ⟨2, ![131072, 1]⟩
abbrev S131072x3 : Shape := ⟨2, ![131072, 3]⟩
abbrev S131072x64 : Shape := ⟨2, ![131072, 64]⟩
abbrev S1x64 : Shape := ⟨2, ![1, 64]⟩
abbrev S1x131072x64 : Shape := ⟨3, ![1, 131072, 64]⟩

abbrev nBuf : Space → Nat
  | .hbm => 119
  | .vmem => 0
  | .smem => 0
  | _ => 0

abbrev bufTy : (tb : Table) → Fin (tcTables nBuf tb) → BufTy
  | .hbm, ⟨0, _⟩ => ⟨S8x131072x64, .f32⟩
  | .hbm, ⟨1, _⟩ => ⟨S64x64x32x64, .f32⟩
  | .hbm, ⟨2, _⟩ => ⟨S64x64, .f32⟩
  | .hbm, ⟨3, _⟩ => ⟨S64, .f32⟩
  | .hbm, ⟨4, _⟩ => ⟨S131072, .i32⟩
  | .hbm, ⟨5, _⟩ => ⟨S_, .i32⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S131072, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S131072, .i32⟩
  | .hbm, ⟨30, _⟩ => ⟨S131072, .i32⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S_, .i32⟩
  | .hbm, ⟨38, _⟩ => ⟨S_, .i1⟩
  | .hbm, ⟨39, _⟩ => ⟨S131072, .i1⟩
  | .hbm, ⟨40, _⟩ => ⟨S131072, .i1⟩
  | .hbm, ⟨41, _⟩ => ⟨S131072, .i1⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S_, .i32⟩
  | .hbm, ⟨46, _⟩ => ⟨S_, .i32⟩
  | .hbm, ⟨47, _⟩ => ⟨S131072, .i32⟩
  | .hbm, ⟨48, _⟩ => ⟨S131072, .i32⟩
  | .hbm, ⟨49, _⟩ => ⟨S131072, .i32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S131072, .i32⟩
  | .hbm, ⟨54, _⟩ => ⟨S131072, .i32⟩
  | .hbm, ⟨55, _⟩ => ⟨S_, .i32⟩
  | .hbm, ⟨56, _⟩ => ⟨S131072, .i32⟩
  | .hbm, ⟨57, _⟩ => ⟨S131072, .i1⟩
  | .hbm, ⟨58, _⟩ => ⟨S131072, .i1⟩
  | .hbm, ⟨59, _⟩ => ⟨S_, .i32⟩
  | .hbm, ⟨60, _⟩ => ⟨S131072, .i32⟩
  | .hbm, ⟨61, _⟩ => ⟨S131072, .i32⟩
  | .hbm, ⟨62, _⟩ => ⟨S131072, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S131072, .i32⟩
  | .hbm, ⟨70, _⟩ => ⟨S131072, .i32⟩
  | .hbm, ⟨71, _⟩ => ⟨S_, .i32⟩
  | .hbm, ⟨72, _⟩ => ⟨S131072, .i32⟩
  | .hbm, ⟨73, _⟩ => ⟨S131072, .i1⟩
  | .hbm, ⟨74, _⟩ => ⟨S_, .i32⟩
  | .hbm, ⟨75, _⟩ => ⟨S131072, .i32⟩
  | .hbm, ⟨76, _⟩ => ⟨S131072, .i1⟩
  | .hbm, ⟨77, _⟩ => ⟨S_, .i32⟩
  | .hbm, ⟨78, _⟩ => ⟨S_, .i1⟩
  | .hbm, ⟨79, _⟩ => ⟨S131072, .i1⟩
  | .hbm, ⟨80, _⟩ => ⟨S131072, .i1⟩
  | .hbm, ⟨81, _⟩ => ⟨S131072, .i1⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S_, .i32⟩
  | .hbm, ⟨86, _⟩ => ⟨S131072, .i32⟩
  | .hbm, ⟨87, _⟩ => ⟨S131072, .i1⟩
  | .hbm, ⟨88, _⟩ => ⟨S_, .i32⟩
  | .hbm, ⟨89, _⟩ => ⟨S131072, .i32⟩
  | .hbm, ⟨90, _⟩ => ⟨S131072, .i32⟩
  | .hbm, ⟨91, _⟩ => ⟨S131072, .i32⟩
  | .hbm, ⟨92, _⟩ => ⟨S_, .i32⟩
  | .hbm, ⟨93, _⟩ => ⟨S131072, .i32⟩
  | .hbm, ⟨94, _⟩ => ⟨S131072, .i1⟩
  | .hbm, ⟨95, _⟩ => ⟨S_, .i32⟩
  | .hbm, ⟨96, _⟩ => ⟨S131072, .i32⟩
  | .hbm, ⟨97, _⟩ => ⟨S131072, .i32⟩
  | .hbm, ⟨98, _⟩ => ⟨S131072, .i32⟩
  | .hbm, ⟨99, _⟩ => ⟨S_, .i32⟩
  | .hbm, ⟨100, _⟩ => ⟨S131072, .i32⟩
  | .hbm, ⟨101, _⟩ => ⟨S131072, .i1⟩
  | .hbm, ⟨102, _⟩ => ⟨S_, .i32⟩
  | .hbm, ⟨103, _⟩ => ⟨S131072, .i32⟩
  | .hbm, ⟨104, _⟩ => ⟨S131072, .i32⟩
  | .hbm, ⟨105, _⟩ => ⟨S131072, .i32⟩
  | .hbm, ⟨106, _⟩ => ⟨S131072x1, .i32⟩
  | .hbm, ⟨107, _⟩ => ⟨S131072x1, .i32⟩
  | .hbm, ⟨108, _⟩ => ⟨S131072x1, .i32⟩
  | .hbm, ⟨109, _⟩ => ⟨S131072x3, .i32⟩
  | .hbm, ⟨110, _⟩ => ⟨S131072x64, .f32⟩
  | .hbm, ⟨111, _⟩ => ⟨S64x64, .f32⟩
  | .hbm, ⟨112, _⟩ => ⟨S131072x64, .f32⟩
  | .hbm, ⟨113, _⟩ => ⟨S1x64, .f32⟩
  | .hbm, ⟨114, _⟩ => ⟨S131072x64, .f32⟩
  | .hbm, ⟨115, _⟩ => ⟨S131072x64, .f32⟩
  | .hbm, ⟨116, _⟩ => ⟨S1x131072x64, .f32⟩
  | .hbm, ⟨117, _⟩ => ⟨S8x131072x64, .f32⟩
  | .hbm, ⟨118, _⟩ => ⟨S8x131072x64, .f32⟩
  | _, _ => ⟨S8x131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_c_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v3 : Ref sig .tc := ⟨.hbm, 62, rfl⟩
abbrev main_c_2 : Ref sig .tc := ⟨.hbm, 63, rfl⟩
abbrev main_call3_v0 : Ref sig .tc := ⟨.hbm, 64, rfl⟩
abbrev main_call3_c : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_1 : Ref sig .tc := ⟨.hbm, 71, rfl⟩
abbrev main_call3_v5 : Ref sig .tc := ⟨.hbm, 72, rfl⟩
abbrev main_call3_v6 : Ref sig .tc := ⟨.hbm, 73, rfl⟩
abbrev main_call3_c_2 : Ref sig .tc := ⟨.hbm, 74, rfl⟩
abbrev main_call3_v7 : Ref sig .tc := ⟨.hbm, 75, rfl⟩
abbrev main_call3_v8 : Ref sig .tc := ⟨.hbm, 76, rfl⟩
abbrev main_call3_c_3 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_v4 : Ref sig .tc := ⟨.hbm, 84, rfl⟩
abbrev main_c_3 : Ref sig .tc := ⟨.hbm, 85, rfl⟩
abbrev main_v5 : Ref sig .tc := ⟨.hbm, 86, rfl⟩
abbrev main_v6 : Ref sig .tc := ⟨.hbm, 87, rfl⟩
abbrev main_c_4 : Ref sig .tc := ⟨.hbm, 88, rfl⟩
abbrev main_v7 : Ref sig .tc := ⟨.hbm, 89, rfl⟩
abbrev main_v8 : Ref sig .tc := ⟨.hbm, 90, rfl⟩
abbrev main_v9 : Ref sig .tc := ⟨.hbm, 91, rfl⟩
abbrev main_c_5 : Ref sig .tc := ⟨.hbm, 92, rfl⟩
abbrev main_v10 : Ref sig .tc := ⟨.hbm, 93, rfl⟩
abbrev main_v11 : Ref sig .tc := ⟨.hbm, 94, rfl⟩
abbrev main_c_6 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_c_7 : Ref sig .tc := ⟨.hbm, 99, rfl⟩
abbrev main_v15 : Ref sig .tc := ⟨.hbm, 100, rfl⟩
abbrev main_v16 : Ref sig .tc := ⟨.hbm, 101, rfl⟩
abbrev main_c_8 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  transposes_S64x64_S64x64_1_0 : S64x64.Transposes [1, 0] S64x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S131072x64_S1x131072x64_1_2 : S131072x64.BroadcastsInDim S1x131072x64 (![1, 2] : Fin 2 → Fin S1x131072x64.rank)
  bcast_S1x131072x64_S8x131072x64_0_1_2 : S1x131072x64.BroadcastsInDim S8x131072x64 (![0, 1, 2] : Fin 3 → Fin S8x131072x64.rank)
  gather_S64x64x32x64_S131072x3_S131072x64_1_012_n_n_012_1_11164_wf : GatherDims.WF S64x64x32x64 S131072x3 S131072x64 [1] [0, 1, 2] [] [0, 1, 2] [] 1 ![1, 1, 1, 64]
  dot_S131072x64_S64x64_S131072x64_1_0_0_1_n_n_wf : DotDims.WF S131072x64 S64x64 S131072x64 [1] [0] [0] [1] [] []

variable [Facts₀]

def gather_S64x64x32x64_S131072x3_S131072x64_1_012_n_n_012_1_11164 : GatherDims S64x64x32x64 S131072x3 S131072x64 where
  offsetDims := [1]
  collapsedSliceDims := [0, 1, 2]
  operandBatchingDims := []
  startIndicesBatchingDims := []
  startIndexMap := [0, 1, 2]
  indexVectorDim := 1
  sliceSizes := ![1, 1, 1, 64]
  wf := gather_S64x64x32x64_S131072x3_S131072x64_1_012_n_n_012_1_11164_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf

class Facts : Prop extends Facts₀ where

variable [Facts]
-- ==== Proof.Spec.lean ====
/-
  The function both programs compute, over the extended reals, index by index.

  A row `n` of the flattened voxel grid (64 × 64 × 32 voxels, row-major) is the voxel `(n / 2048, n % 2048 / 32, n % 32)`;
  its positional code is the 64 entries of `pe` at that voxel.  The projected code of row `n` at channel `c` is
  `Σ k, pe[voxel n, k] · W[c, k] + b[c]` (the code times the transposed weight, plus the bias), and the result adds it to
  every batch's feature: `out[β, n, c] = feat[β, n, c] + (Σ k, pe[voxel n, k] · W[c, k] + b[c])`.
  Both programs group the sum exactly so: no law that fails at an infinity is needed to join them.
-/
import Idealize.ShloMosaic.PureOps.Ideal
import Idealize.ShloMosaic.Lib.ValueIdx

noncomputable section

open scoped BigOperators

namespace Cert.Spec

open Idealize.ShloMosaic Idealize.ShloMosaic.ValueIdx

/-- The first voxel coordinate of row `n`. -/
def vx (n : Fin 131072) : Fin 64 := ⟨n.val / 2048, by have := n.isLt; omega⟩
/-- The second voxel coordinate of row `n`. -/
def vy (n : Fin 131072) : Fin 64 := ⟨n.val % 2048 / 32, by have := n.isLt; omega⟩
/-- The third voxel coordinate of row `n`. -/
def vz (n : Fin 131072) : Fin 32 := ⟨n.val % 32, Nat.mod_lt _ (by decide)⟩

/-- The row-major flattening is inverted by the three coordinates. -/
theorem voxel_flat (n : Fin 131072) : ((vx n).val * 64 + (vy n).val) * 32 + (vz n).val = n.val := by
  show (n.val / 2048 * 64 + n.val % 2048 / 32) * 32 + n.val % 32 = n.val
  omega

/-- Entry `k` of the positional code of row `n`. -/
def code (pe : (⟨4, ![64, 64, 32, 64]⟩ : Shape).Idx → EReal) (n : Fin 131072) (k : Fin 64) : EReal :=
  pe (ix4 (vx n) (vy n) (vz n) k)

/-- The projected code of row `n` at channel `c`: the code times the transposed weight, plus the bias. -/
def proj (pe : (⟨4, ![64, 64, 32, 64]⟩ : Shape).Idx → EReal) (W : (⟨2, ![64, 64]⟩ : Shape).Idx → EReal)
    (b : (⟨1, ![64]⟩ : Shape).Idx → EReal) (n : Fin 131072) (c : Fin 64) : EReal :=
  (∑ k : Fin 64, code pe n k * W (ix2 c k)) + b (ix1 c)

/-- The result array: every batch's feature plus the projected code of its row. -/
def G (feat : (⟨3, ![8, 131072, 64]⟩ : Shape).Idx → EReal) (pe : (⟨4, ![64, 64, 32, 64]⟩ : Shape).Idx → EReal)
    (W : (⟨2, ![64, 64]⟩ : Shape).Idx → EReal) (b : (⟨1, ![64]⟩ : Shape).Idx → EReal) :
    (⟨3, ![8, 131072, 64]⟩ : Shape).Idx → EReal :=
  fun i => feat i + proj pe W b (i 1) (i 2)

/-- `G` at an index given by its coordinates. -/
theorem G_apply (feat : (⟨3, ![8, 131072, 64]⟩ : Shape).Idx → EReal) (pe : (⟨4, ![64, 64, 32, 64]⟩ : Shape).Idx → EReal)
    (W : (⟨2, ![64, 64]⟩ : Shape).Idx → EReal) (b : (⟨1, ![64]⟩ : Shape).Idx → EReal)
    (β : Fin 8) (n : Fin 131072) (c : Fin 64) :
    G feat pe W b (ix3 β n c) = feat (ix3 β n c) + ((∑ k : Fin 64, pe (ix4 (vx n) (vy n) (vz n) k) * W (ix2 c k)) + b (ix1 c)) := rfl

end Cert.Spec

end
-- ==== Proof.KernelHost.lean ====
/-
  The three arrays the host prepares before the kernel's region, read at an element.

  The positional codes are flattened to one row per voxel: row n of the flat array is the code of the voxel
  (n / 2048, n % 2048 / 32, n % 32), because the grid is 64 × 64 × 32 voxels laid out row-major.  The weight is
  transposed, so its entry (k, c) is W (c, k).  The bias gets a leading unit axis, so its entry (0, c) is b c.
-/
import proofs.«102138_j22247930593290_1_alg».proof.Proof.Gen.KernelIdeal.Frame
import proofs.«102138_j22247930593290_1_alg».proof.Proof.Spec
import Idealize.ShloMosaic.Lib.StableHlo.Run
import Idealize.ShloMosaic.Lib.ValueLayout

noncomputable section

namespace Cert.KernelIdeal.KHost

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ)

/-- The flat code array the region finds is the launched codes re-laid. -/
theorem codes_eq (c : Dev nD) : (V m c main_v0 : S131072x64.Idx → EReal)
    = shapeCast S131072x64 (m ((c : Thread nD τ).loc main_arg1) : S64x64x32x64.Idx → EReal) shapeCasts_S64x64x32x64_S131072x64 := by
  dsimp only [Gen.V, Gen.hostOps0]; after_results; rfl

/-- The weight the region finds is the launched weight transposed. -/
theorem weight_eq (c : Dev nD) : (V m c main_v1 : S64x64.Idx → EReal)
    = transpose S64x64 [1, 0] (m ((c : Thread nD τ).loc main_arg2) : S64x64.Idx → EReal) transposes_S64x64_S64x64_1_0 := by
  dsimp only [Gen.V, Gen.hostOps0]; after_results

/-- The bias row the region finds is the launched bias with a leading unit axis. -/
theorem bias_eq (c : Dev nD) : (V m c main_v2 : S1x64.Idx → EReal)
    = shapeCast S1x64 (m ((c : Thread nD τ).loc main_arg3) : S64.Idx → EReal) shapeCasts_S64_S1x64 := by
  dsimp only [Gen.V, Gen.hostOps0]; after_results; rfl

/-! ## Read at an element -/

/-- Row n of the flat code array, entry k: the code of row n's voxel. -/
theorem codes_apply (c : Dev nD) (n : Fin 131072) (k : Fin 64) :
    (V m c main_v0 : S131072x64.Idx → EReal) (ix2 n k)
      = Cert.Spec.code (m ((c : Thread nD τ).loc main_arg1)) n k := by
  rw [codes_eq]
  refine shapeCast_apply _ _ _ (ix4 (Cert.Spec.vx n) (Cert.Spec.vy n) (Cert.Spec.vz n) k) ?_
  rw [Shape.rowMajor_val_four, Shape.rowMajor_val_two]
  show (((Cert.Spec.vx n).val * 64 + (Cert.Spec.vy n).val) * 32 + (Cert.Spec.vz n).val) * 64 + k.val = n.val * 64 + k.val
  rw [Cert.Spec.voxel_flat]

/-- Entry (k, c') of the transposed weight is the weight's entry (c', k). -/
theorem weight_apply (c : Dev nD) (k c' : Fin 64) :
    (V m c main_v1 : S64x64.Idx → EReal) (ix2 k c') = (m ((c : Thread nD τ).loc main_arg2) : S64x64.Idx → EReal) (ix2 c' k) := by
  rw [weight_eq]
  exact transpose_ix2_apply _ _ k c'

/-- Entry (u, c') of the bias row is the bias at c'. -/
theorem bias_apply (c : Dev nD) (u : Fin 1) (c' : Fin 64) :
    (V m c main_v2 : S1x64.Idx → EReal) (ix2 u c') = (m ((c : Thread nD τ).loc main_arg3) : S64.Idx → EReal) (ix1 c') := by
  rw [bias_eq]
  exact shapeCast_a_1a_apply _ _ u c'

end Cert.KernelIdeal.KHost

end
-- ==== Proof.KernelPayload.lean ====
/-
  The body's arithmetic read at one element of the output block.

  A block of the kernel holds one batch's 8192 rows.  Its payload is the feature block plus, re-laid with a leading
  unit axis, the product of the rows' positional codes with the transposed weight (a matrix product into the zero
  matrix, so a plain sum over the 64 code entries) plus the bias row broadcast down the rows.  At the ideal values the
  narrowing of the two factors is the identity.  Element (u, r, c) of the payload is therefore
  feat (u, r, c) + ((Σ k, code (r, k) · wt (k, c)) + bias (0, c)), grouped exactly so.
-/
import proofs.«102138_j22247930593290_1_alg».proof.Proof.Gen.KernelIdeal.Skeleton
import Idealize.ShloMosaic.PureOps.Ideal.Laws
import Idealize.ShloMosaic.Lib.ValueIdx
import Idealize.ShloMosaic.Lib.ValueLayout

noncomputable section

open scoped BigOperators

namespace Cert.KernelIdeal.KPayload

open Cert.KernelIdeal Cert.KernelIdeal.Gen Idealize.ShloMosaic Idealize.ShloMosaic.ValueIdx

/-! ## The matrix product's operand indices, axis by axis -/

/-- The left factor is read on the output's row. -/
theorem lhs_row (j : S8192x64.Idx) (k : dot_S8192x64_S64x64_S8192x64_1_0_0_1_n_n.contr.Idx) :
    (dot_S8192x64_S64x64_S8192x64_1_0_0_1_n_n.lhsIdx j k 0).val = (j 0).val := by
  simp [DotDims.lhsIdx, dot_S8192x64_S64x64_S8192x64_1_0_0_1_n_n]; rfl

/-- The left factor's column is the contraction position. -/
theorem lhs_col (j : S8192x64.Idx) (k : dot_S8192x64_S64x64_S8192x64_1_0_0_1_n_n.contr.Idx) :
    (dot_S8192x64_S64x64_S8192x64_1_0_0_1_n_n.lhsIdx j k 1).val = (k ⟨0, by decide⟩).val :=
  dot_S8192x64_S64x64_S8192x64_1_0_0_1_n_n.lhsIdx_val_of_single rfl j k

/-- The right factor's row is the contraction position. -/
theorem rhs_row (j : S8192x64.Idx) (k : dot_S8192x64_S64x64_S8192x64_1_0_0_1_n_n.contr.Idx) :
    (dot_S8192x64_S64x64_S8192x64_1_0_0_1_n_n.rhsIdx j k 0).val = (k ⟨0, by decide⟩).val :=
  dot_S8192x64_S64x64_S8192x64_1_0_0_1_n_n.rhsIdx_val_of_single rfl j k

/-- The right factor is read on the output's column. -/
theorem rhs_col (j : S8192x64.Idx) (k : dot_S8192x64_S64x64_S8192x64_1_0_0_1_n_n.contr.Idx) :
    (dot_S8192x64_S64x64_S8192x64_1_0_0_1_n_n.rhsIdx j k 1).val = (j 1).val := by
  simp [DotDims.rhsIdx, dot_S8192x64_S64x64_S8192x64_1_0_0_1_n_n]; rfl

/-! ## The matrix product at an element -/

/-- The product of an 8192 × 64 block with a 64 × 64 matrix into the zero matrix, at row r and column c: the sum over
    the 64 contraction positions of the products of the entries. -/
theorem matmul_zero_apply (A : FVec Ideal S8192x64 .bf16) (B : FVec Ideal S64x64 .bf16) (r : Fin 8192) (c : Fin 64) :
    matmul dot_S8192x64_S64x64_S8192x64_1_0_0_1_n_n none A B (constant (F := Ideal) S8192x64 .f32 0x00000000#32) (ix2 r c)
      = ∑ k : Fin 64, A (ix2 r k) * B (ix2 k c) := by
  show FloatOps.matmul _ none A B _ (ix2 r c) = _
  rw [Ideal.matmul_constant_zero_apply,
    ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have hl : dot_S8192x64_S64x64_S8192x64_1_0_0_1_n_n.lhsIdx (ix2 r c)
      ((contrEquiv1 dot_S8192x64_S64x64_S8192x64_1_0_0_1_n_n 64 rfl rfl).symm k) = ix2 r k := by
    funext a; apply Fin.ext
    match a with
    | ⟨0, _⟩ => exact lhs_row _ _
    | ⟨1, _⟩ => exact (lhs_col _ _).trans hk
  have hr : dot_S8192x64_S64x64_S8192x64_1_0_0_1_n_n.rhsIdx (ix2 r c)
      ((contrEquiv1 dot_S8192x64_S64x64_S8192x64_1_0_0_1_n_n 64 rfl rfl).symm k) = ix2 k c := by
    funext a; apply Fin.ext
    match a with
    | ⟨0, _⟩ => exact (rhs_row _ _).trans hk
    | ⟨1, _⟩ => exact rhs_col _ _
  rw [hl, hr]

/-! ## The payload at an element -/

/-- Element (u, r, c) of what the body stores: the feature there plus the projected code of row r at channel c, the
    code's 64 entries times column c of the transposed weight, summed, plus the bias. -/
theorem pay_apply (code : Vec Ideal S8192x64 .f32) (wt : Vec Ideal S64x64 .f32) (bias : Vec Ideal S1x64 .f32)
    (feat : Vec Ideal S1x8192x64 .f32) (u : Fin 1) (r : Fin 8192) (c : Fin 64) :
    k0_pay1 code wt bias feat (ix3 u r c)
      = feat (ix3 u r c) + ((∑ k : Fin 64, code (ix2 r k) * wt (ix2 k c)) + bias (ix2 (0 : Fin 1) c)) := by
  unfold k0_pay1
  simp only [shapeCast_self]
  rw [addf_apply, shapeCast_ab_1ab_apply, addf_apply, broadcastTo_1b_ab_apply, matmul_zero_apply]
  rfl

end Cert.KernelIdeal.KPayload

end
-- ==== Proof.KernelBlockValue.lean ====
/-
  One element of an output block, from what the body's four loads hold.

  The grid's point (β, q) works on batch β and on rows q · 8192 … q · 8192 + 8191 of the flat voxel array.  If its
  feature block holds the features of that batch and those rows, its code block the codes of those rows, its weight
  block the transposed weight and its bias block the bias row, then element (u, r, c) of what the body stores is the
  result function at batch β, row q · 8192 + r, channel c.
-/
import proofs.«102138_j22247930593290_1_alg».proof.Proof.KernelPayload
import proofs.«102138_j22247930593290_1_alg».proof.Proof.Spec

noncomputable section

open scoped BigOperators

namespace Cert.KernelIdeal.KBlock

open Cert.KernelIdeal Cert.KernelIdeal.Gen Idealize.ShloMosaic Idealize.ShloMosaic.ValueIdx

/-- Row r of row block q, as a row of the flat voxel array. -/
def rowOf (q : Fin 16) (r : Fin 8192) : Fin 131072 := ⟨q.val * 8192 + r.val, by have := q.isLt; have := r.isLt; omega⟩

theorem rowOf_val (q : Fin 16) (r : Fin 8192) : (rowOf q r).val = q.val * 8192 + r.val := rfl

/-- The payload of the blocks of point (β, q) is the result function on that block. -/
theorem pay_block (feat : (⟨3, ![8, 131072, 64]⟩ : Shape).Idx → EReal) (pe : (⟨4, ![64, 64, 32, 64]⟩ : Shape).Idx → EReal)
    (W : (⟨2, ![64, 64]⟩ : Shape).Idx → EReal) (b : (⟨1, ![64]⟩ : Shape).Idx → EReal)
    (x0 : Vec Ideal S1x8192x64 .f32) (x1 : Vec Ideal S8192x64 .f32) (x2 : Vec Ideal S64x64 .f32) (x3 : Vec Ideal S1x64 .f32)
    (β : Fin 8) (q : Fin 16)
    (h0 : ∀ (u : Fin 1) (r : Fin 8192) (c : Fin 64), x0 (ix3 u r c) = feat (ix3 β (rowOf q r) c))
    (h1 : ∀ (r : Fin 8192) (k : Fin 64), x1 (ix2 r k) = Cert.Spec.code pe (rowOf q r) k)
    (h2 : ∀ (k c : Fin 64), x2 (ix2 k c) = W (ix2 c k))
    (h3 : ∀ (u : Fin 1) (c : Fin 64), x3 (ix2 u c) = b (ix1 c))
    (u : Fin 1) (r : Fin 8192) (c : Fin 64) :
    k0_pay1 x1 x2 x3 x0 (ix3 u r c) = Cert.Spec.G feat pe W b (ix3 β (rowOf q r) c) := by
  rw [KPayload.pay_apply, Cert.Spec.G_apply, h0, h3]
  simp only [h1, h2]
  rfl

end Cert.KernelIdeal.KBlock

end
-- ==== Proof.KernelBlocks.lean ====
/-
  From the blocks to the array.

  The grid has 8 × 16 points; point t works on batch t / 16 and on the row block t % 16 of the flat voxel array (8192
  rows each).  The feature and output windows move with both coordinates, the code window with the row block only, and
  the transposed weight and the bias row are read whole at every point.  So what point t writes back is the result
  function restricted to its block: batch t / 16, rows (t % 16) · 8192 … + 8191, all 64 channels.  The 128 blocks tile
  the output array (the index (β, n, c) lies in the block of point β · 16 + n / 8192), hence the array after the run is
  the result function everywhere.
-/
import proofs.«102138_j22247930593290_1_alg».proof.Proof.Gen.KernelIdeal.Value
import proofs.«102138_j22247930593290_1_alg».proof.Proof.KernelHost
import proofs.«102138_j22247930593290_1_alg».proof.Proof.KernelBlockValue
import Idealize.ShloMosaic.Lib.Pipeline.Value
import Idealize.ShloMosaic.Lib.Tactic

noncomputable section

namespace Cert.KernelIdeal.KBlocks

open Cert.KernelIdeal Cert.KernelIdeal.Gen Cert.KernelIdeal.Value Idealize.ShloMosaic Idealize.ShloMosaic.TcCoe Idealize.SL.Sem
open Idealize.ShloMosaic.ValueIdx Cert.KernelIdeal.KBlock
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid's 128 points: point t is batch t / 16 and row block t % 16. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 16 ∧ win0_4.index t (1 : Fin 3) = t.val % 16 ∧ win0_4.index t (2 : Fin 3) = 0 :=
  (by decide +kernel : ∀ t : Fin grid0.N, _)

/-- The batch point t works on. -/
def batchOf (t : Fin cfg0.N) : Fin 8 := ⟨t.val / 16, by have := t.isLt; have hN : cfg0.N = 128 := N_0; omega⟩
/-- The row block point t works on. -/
def blockOf (t : Fin cfg0.N) : Fin 16 := ⟨t.val % 16, Nat.mod_lt _ (by decide)⟩

/-- The feature block at point t: the features of its batch and its rows. -/
theorem feat_block (c : Dev nD) (t : Fin cfg0.N) (u : Fin 1) (r : Fin 8192) (c' : Fin 64) :
    (iblk m c 0 t : Vec Ideal S1x8192x64 .f32) (ix3 u r c')
      = (m ((c : Thread nD τ).loc main_arg0) : S8x131072x64.Idx → EReal) (ix3 (batchOf t) (rowOf (blockOf t) r) c') := by
  obtain ⟨e0, e1, e2, -⟩ := idx_facts t
  unfold iblk
  rw [View.read_apply]
  show V m c main_arg0 _ = _
  rw [V_main_arg0]
  congr 1
  funext a; apply Fin.ext
  match a with
  | ⟨0, _⟩ => show win0_0.index t (0 : Fin 3) * 1 + 1 * u.val = t.val / 16; omega
  | ⟨1, _⟩ => show win0_0.index t (1 : Fin 3) * 8192 + 1 * r.val = t.val % 16 * 8192 + r.val; omega
  | ⟨2, _⟩ => show win0_0.index t (2 : Fin 3) * 64 + 1 * c'.val = c'.val; omega

/-- The code block at point t: the codes of its rows. -/
theorem code_block (c : Dev nD) (t : Fin cfg0.N) (r : Fin 8192) (k : Fin 64) :
    (iblk m c 1 t : Vec Ideal S8192x64 .f32) (ix2 r k)
      = Cert.Spec.code (m ((c : Thread nD τ).loc main_arg1)) (rowOf (blockOf t) r) k := by
  obtain ⟨-, -, -, e0, e1, -⟩ := idx_facts t
  rw [← KHost.codes_apply m c (rowOf (blockOf t) r) k]
  unfold iblk
  rw [View.read_apply]
  show V m c main_v0 _ = _
  congr 1
  funext a; apply Fin.ext
  match a with
  | ⟨0, _⟩ => show win0_1.index t (0 : Fin 2) * 8192 + 1 * r.val = t.val % 16 * 8192 + r.val; omega
  | ⟨1, _⟩ => show win0_1.index t (1 : Fin 2) * 64 + 1 * k.val = k.val; omega

/-- The weight block at every point: the transposed weight. -/
theorem weight_block (c : Dev nD) (t : Fin cfg0.N) (k c' : Fin 64) :
    (iblk m c 2 t : Vec Ideal S64x64 .f32) (ix2 k c')
      = (m ((c : Thread nD τ).loc main_arg2) : S64x64.Idx → EReal) (ix2 c' k) := by
  obtain ⟨-, -, -, -, -, e0, e1, -⟩ := idx_facts t
  rw [← KHost.weight_apply m c k c']
  unfold iblk
  rw [View.read_apply]
  show V m c main_v1 _ = _
  congr 1
  funext a; apply Fin.ext
  match a with
  | ⟨0, _⟩ => show win0_2.index t (0 : Fin 2) * 64 + 1 * k.val = k.val; omega
  | ⟨1, _⟩ => show win0_2.index t (1 : Fin 2) * 64 + 1 * c'.val = c'.val; omega

/-- The bias block at every point: the bias row. -/
theorem bias_block (c : Dev nD) (t : Fin cfg0.N) (u : Fin 1) (c' : Fin 64) :
    (iblk m c 3 t : Vec Ideal S1x64 .f32) (ix2 u c')
      = (m ((c : Thread nD τ).loc main_arg3) : S64.Idx → EReal) (ix1 c') := by
  obtain ⟨-, -, -, -, -, -, -, e0, e1, -⟩ := idx_facts t
  rw [← KHost.bias_apply m c u c']
  unfold iblk
  rw [View.read_apply]
  show V m c main_v2 _ = _
  congr 1
  funext a; apply Fin.ext
  match a with
  | ⟨0, _⟩ => show win0_3.index t (0 : Fin 2) * 1 + 1 * u.val = u.val; omega
  | ⟨1, _⟩ => show win0_3.index t (1 : Fin 2) * 64 + 1 * c'.val = c'.val; omega

/-! ## What a point writes back, and the array after the run -/

/-- The result function of the launched arrays. -/
abbrev result (c : Dev nD) : S8x131072x64.Idx → EReal :=
  Cert.Spec.G (m ((c : Thread nD τ).loc main_arg0)) (m ((c : Thread nD τ).loc main_arg1))
    (m ((c : Thread nD τ).loc main_arg2)) (m ((c : Thread nD τ).loc main_arg3))

/-- What point t writes back is its block of the result function. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz3]
  simp only [View.ld_unit_zero (S := S8192x64) hz2, View.ld_unit_zero (S := S64x64) hz2, View.ld_unit_zero (S := S1x64) hz2,
    View.ld_unit_zero (S := S1x8192x64) hz3]
  obtain ⟨-, -, -, -, -, -, -, -, -, e0, e1, e2⟩ := idx_facts t
  funext y
  obtain ⟨u, r, c', rfl⟩ : ∃ (u : Fin 1) (r : Fin 8192) (c' : Fin 64), y = ix3 u r c' := ⟨y 0, y 1, y 2, eq_ix3 y⟩
  show k0_pay1 (iblk m c 1 t) (iblk m c 2 t) (iblk m c 3 t) (iblk m c 0 t) (ix3 u r c')
    = result m c (((cfg0.win 4).blk t).view.emb (ix3 u r c'))
  have hi : ((cfg0.win 4).blk t).view.emb (ix3 u r c') = ix3 (batchOf t) (rowOf (blockOf t) r) c' := by
    funext a; apply Fin.ext
    match a with
    | ⟨0, _⟩ => show win0_4.index t (0 : Fin 3) * 1 + 1 * u.val = t.val / 16; omega
    | ⟨1, _⟩ => show win0_4.index t (1 : Fin 3) * 8192 + 1 * r.val = t.val % 16 * 8192 + r.val; omega
    | ⟨2, _⟩ => show win0_4.index t (2 : Fin 3) * 64 + 1 * c'.val = c'.val; omega
  rw [hi]
  exact pay_block _ _ _ _ _ _ _ _ (batchOf t) (blockOf t) (feat_block m c t) (code_block m c t) (weight_block m c t)
    (bias_block m c t) u r c'

/-- An index of the array is in point t's block exactly when each coordinate is in the block's range on its axis. -/
theorem mem_blk (t : Fin cfg0.N) (i : S8x131072x64.Idx) :
    i ∈ ((cfg0.win 4).blk t).view.set ↔ ∀ a : Fin 3, win0_4.index t a * S1x8192x64.size a ≤ (i a).val ∧ (i a).val < win0_4.index t a * S1x8192x64.size a + S1x8192x64.size a := by
  show i ∈ ((View.whole main_v3).slice (win0_4.rect t)).set ↔ _
  rw [View.set_slice_whole, Rect.mem_set_unit]
  exact Iff.rfl

/-- Every index of the array is in the block of the point of its batch and its row's block. -/
theorem cover (i : S8x131072x64.Idx) : ∃ t : Fin cfg0.N, (cfg0.win 4).flush t = true ∧ i ∈ ((cfg0.win 4).blk t).view.set := by
  have hN : cfg0.N = 128 := N_0
  have hi0 : (i 0).val < 8 := (i 0).isLt
  have hi1 : (i 1).val < 131072 := (i 1).isLt
  have hi2 : (i 2).val < 64 := (i 2).isLt
  refine ⟨⟨(i 0).val * 16 + (i 1).val / 8192, by rw [hN]; omega⟩, flush0_4 _, ?_⟩
  obtain ⟨-, -, -, -, -, -, -, -, -, e0, e1, e2⟩ := idx_facts ⟨(i 0).val * 16 + (i 1).val / 8192, by rw [hN]; omega⟩
  rw [mem_blk]
  intro a
  match a with
  | ⟨0, _⟩ => show win0_4.index _ (0 : Fin 3) * 1 ≤ (i 0).val ∧ (i 0).val < win0_4.index _ (0 : Fin 3) * 1 + 1
              rw [e0]; show ((i 0).val * 16 + (i 1).val / 8192) / 16 * 1 ≤ (i 0).val ∧ (i 0).val < ((i 0).val * 16 + (i 1).val / 8192) / 16 * 1 + 1; omega
  | ⟨1, _⟩ => show win0_4.index _ (1 : Fin 3) * 8192 ≤ (i 1).val ∧ (i 1).val < win0_4.index _ (1 : Fin 3) * 8192 + 8192
              rw [e1]; show ((i 0).val * 16 + (i 1).val / 8192) % 16 * 8192 ≤ (i 1).val ∧ (i 1).val < ((i 0).val * 16 + (i 1).val / 8192) % 16 * 8192 + 8192; omega
  | ⟨2, _⟩ => show win0_4.index _ (2 : Fin 3) * 64 ≤ (i 2).val ∧ (i 2).val < win0_4.index _ (2 : Fin 3) * 64 + 64
              rw [e2]; omega

/-- The output array after the run is the result function of the launched arrays. -/
theorem final (c : Dev nD) : (dats m 0 c).arrAt 4 cfg0.N = result m c :=
  (dats m 0 c).arrAt_eq_of_cover 4 (result m c) (fun t _ => flushed_eq m c t) cover

end Cert.KernelIdeal.KBlocks

end
-- ==== Proof.KernelValue.lean ====
/-
  The kernel's run, read: after it the output array holds, at batch β, row n and channel c, the feature there plus
  the projected positional code of row n's voxel at channel c, and the four argument arrays are as launched.  The run
  names the output array after the last grid point; that array is the result function because every point writes its
  block of it back and the blocks tile the array.
-/
import proofs.«102138_j22247930593290_1_alg».proof.Proof.Gen.KernelIdeal.Value
import proofs.«102138_j22247930593290_1_alg».proof.Proof.Spec
import proofs.«102138_j22247930593290_1_alg».proof.Proof.KernelBlocks

noncomputable section

namespace Cert.KernelIdeal.KValue

open Cert.KernelIdeal Cert.KernelIdeal.Gen Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (KBlocks.final m c), (h c).2⟩)
    (Cert.KernelIdeal.Value.run_blocks m ρ)

end Cert.KernelIdeal.KValue

end
-- ==== Proof.RefTerm.lean ====
/-
  The reference program's result as ONE term of its four argument arrays, cut into named stages.

  The reference numbers the rows `n = 0 … 131071`, splits each into voxel coordinates with floored division and
  floored remainder (`n // 2048`, `(n % 2048) // 32`, `n % 32`), wraps a negative coordinate by the axis extent (as an
  array index does), stacks the three coordinates into one start index per row, gathers the 64-entry positional code at
  that voxel, multiplies by the transposed weight, adds the bias, and adds the result to every batch's features.
  Each stage below is spelled as the printed program spells it, for any float instance.
-/
import proofs.«102138_j22247930593290_1_alg».proof.Proof.Gen.ReferenceIdeal

noncomputable section

namespace Cert.ReferenceIdeal.RefTerm

open Cert.ReferenceIdeal Cert.ReferenceIdeal.Gen Idealize.ShloMosaic Idealize.SL.Sem

variable {F : FTy → Type} [FloatOps F]

/-- A scalar word repeated over the rows. -/
abbrev rows {w : Nat} (x : IVec S_ w) : IVec S131072 w := broadcastInDim S131072 ![] bcast_S_S131072 x

/-- Floored division of every row's word by the scalar `d`: the truncated quotient, less one where the signs differ and
    the remainder is not zero. -/
def floorDiv (x : IVec S131072 32) (d : IVec S_ 32) : IVec S131072 32 :=
  select (andi (cmpi .ne (signi x) (rows (signi d))) (cmpi .ne (Host.remsi x (rows d)) (rows (constantI S_ 32 0#32))))
    (subi (Host.divsi x (rows d)) (rows (constantI S_ 32 1#32))) (Host.divsi x (rows d))

/-- The divisor a floored remainder really divides by: `1` in place of `0`. -/
def safeDiv (d : IVec S_ 32) : IVec S_ 32 := select (cmpi .eq d (constantI S_ 32 0#32)) (constantI S_ 32 1#32) d

/-- Floored remainder of every row's word by the scalar `d`: the truncated remainder, plus the divisor where it is not
    zero and its sign differs from the divisor's. -/
def floorMod (x : IVec S131072 32) (d : IVec S_ 32) : IVec S131072 32 :=
  select (andi (cmpi .ne (cmpi .slt (Host.remsi x (rows (safeDiv d))) (rows (constantI S_ 32 0#32)))
        (rows (cmpi .slt (safeDiv d) (constantI S_ 32 0#32))))
      (cmpi .ne (Host.remsi x (rows (safeDiv d))) (rows (constantI S_ 32 0#32))))
    (addi (Host.remsi x (rows (safeDiv d))) (rows (safeDiv d))) (Host.remsi x (rows (safeDiv d)))

/-- A negative coordinate wrapped by the axis extent `k`. -/
def wrap (x : IVec S131072 32) (k : BitVec 32) : IVec S131072 32 :=
  select (cmpi .slt x (rows (constantI S_ 32 0#32))) (addi x (rows (constantI S_ 32 k))) x

/-- A row vector as one column. -/
abbrev col (x : IVec S131072 32) : IVec S131072x1 32 := broadcastInDim S131072x1 ![0] bcast_S131072_S131072x1_0 x

/-- The row numbers. -/
abbrev pos : IVec S131072 32 := iotaInDim S131072 32 0

/-- The three voxel coordinates of every row, one start index per row. -/
def starts : IVec S131072x3 32 :=
  concatenate S131072x3 1
    [⟨S131072x1, col (wrap (floorDiv pos (constantI S_ 32 2048#32)) 64#32)⟩,
     ⟨S131072x1, col (wrap (floorDiv (floorMod pos (constantI S_ 32 2048#32)) (constantI S_ 32 32#32)) 64#32)⟩,
     ⟨S131072x1, col (wrap (floorMod pos (constantI S_ 32 32#32)) 32#32)⟩]
    concatenates_S131072x1_S131072x1_S131072x1_S131072x3_d1

/-- Every row's projected code: the gathered code times the transposed weight, plus the bias. -/
def projected (pe : FVec F S64x64x32x64 .f32) (W : FVec F S64x64 .f32) (b : FVec F S64 .f32) : FVec F S131072x64 .f32 :=
  addf (Host.dotGeneral dot_S131072x64_S64x64_S131072x64_1_0_0_1_n_n none
      (Host.gather gather_S64x64x32x64_S131072x3_S131072x64_1_012_n_n_012_1_11164 pe starts)
      (transpose S64x64 [1, 0] W transposes_S64x64_S64x64_1_0))
    (broadcastInDim S131072x64 ![0, 1] bcast_S1x64_S131072x64_0_1 (broadcastInDim S1x64 ![1] bcast_S64_S1x64_1 b))

/-- The reference's result: the features plus the projected code of each row, over every batch. -/
def out (feat : FVec F S8x131072x64 .f32) (pe : FVec F S64x64x32x64 .f32) (W : FVec F S64x64 .f32) (b : FVec F S64 .f32) :
    FVec F S8x131072x64 .f32 :=
  addf feat (broadcastInDim S8x131072x64 ![0, 1, 2] bcast_S1x131072x64_S8x131072x64_0_1_2
    (broadcastInDim S1x131072x64 ![1, 2] bcast_S131072x64_S1x131072x64_1_2 (projected pe W b)))

end Cert.ReferenceIdeal.RefTerm

end
-- ==== Proof.RefRun.lean ====
/-
  The reference program's run, read back as one term of its four argument arrays.

  The program is a straight line of tensor operations once its calls are read as their callees' bodies: the row
  numbers; floored division by 2048 (sixteen operations and the select of the function it calls); floored remainder
  by 2048 (twenty-one, the called function's select of the safe divisor in fifth place); floored division of that remainder
  by 32; floored remainder of the row numbers by 32; the three wraps of a negative coordinate; the three columns and
  their concatenation; the gather, the transposed weight, the contraction, the bias broadcast twice, the sum; the two
  broadcasts over the batch and the final sum with the features. Every buffer then ends at the fold of the
  operations over the launch contents, and that fold at the result buffer is `RefTerm.out` of the arguments'
  contents by computation, the arguments themselves being written by no operation.
-/
import proofs.«102138_j22247930593290_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program in order, each call replaced by its callee's operations over that call's
    buffers: 2, then 17 (floored division by 2048), 1 and 21 (floored remainder by 2048), 1 and 17 (floored division by
    32), 1 and 21 (floored remainder by 32), then the 34 that follow the calls. -/
abbrev ops : List (HloOp τ sig (Elt F)) :=
  [ StableHlo.nullary main_v0 (iotaInDim S131072 32 0),
    StableHlo.nullary main_c (constantI S_ 32 2048#32),
    StableHlo.TRef.unary (.of main_c : TRef sig ⟨S_, .i32⟩) main_call0.v0 id,
    StableHlo.TRef.unary main_call0.v0 main_call0.v1 (broadcastInDim S131072 ![] bcast_S_S131072),
    StableHlo.TRef.binary (.of main_v0 : TRef sig ⟨S131072, .i32⟩) main_call0.v1 main_call0.v2 Host.divsi,
    StableHlo.TRef.unary (.of main_v0 : TRef sig ⟨S131072, .i32⟩) main_call0.v3 signi,
    StableHlo.TRef.unary main_call0.v0 main_call0.v4 signi,
    StableHlo.TRef.unary main_call0.v4 main_call0.v5 (broadcastInDim S131072 ![] bcast_S_S131072),
    StableHlo.TRef.binary main_call0.v3 main_call0.v5 main_call0.v6 (cmpi .ne),
    StableHlo.TRef.unary main_call0.v0 main_call0.v7 (broadcastInDim S131072 ![] bcast_S_S131072),
    StableHlo.TRef.binary (.of main_v0 : TRef sig ⟨S131072, .i32⟩) main_call0.v7 main_call0.v8 Host.remsi,
    StableHlo.TRef.nullary main_call0.c (constantI S_ 32 0#32),
    StableHlo.TRef.unary main_call0.c main_call0.v9 (broadcastInDim S131072 ![] bcast_S_S131072),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S131072 ![] bcast_S_S131072),
    StableHlo.TRef.binary main_call0.v2 main_call0.v12 main_call0.v13 subi,
    StableHlo.TRef.ternary main_call0.v11 main_call0.v13 main_call0.v2 main_call0.call0.v0 select,
    StableHlo.nullary main_c_0 (constantI S_ 32 2048#32),
    StableHlo.TRef.unary (.of main_c_0 : TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S131072 ![] bcast_S_S131072),
    StableHlo.TRef.binary (.of main_v0 : TRef sig ⟨S131072, .i32⟩) main_call1.v3 main_call1.v4 Host.remsi,
    StableHlo.TRef.nullary main_call1.c_1 (constantI S_ 32 0#32),
    StableHlo.TRef.unary main_call1.c_1 main_call1.v5 (broadcastInDim S131072 ![] bcast_S_S131072),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S131072 ![] bcast_S_S131072),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S131072 ![] bcast_S_S131072),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S131072 ![] bcast_S_S131072),
    StableHlo.TRef.binary main_call1.v4 main_call1.v13 main_call1.v14 addi,
    StableHlo.TRef.ternary main_call1.v12 main_call1.v14 main_call1.v4 main_call1.v15 select,
    StableHlo.nullary main_c_1 (constantI S_ 32 32#32),
    StableHlo.TRef.unary (.of main_c_1 : TRef sig ⟨S_, .i32⟩) main_call2.v0 id,
    StableHlo.TRef.unary main_call2.v0 main_call2.v1 (broadcastInDim S131072 ![] bcast_S_S131072),
    StableHlo.TRef.binary (.of main_v2 : TRef sig ⟨S131072, .i32⟩) main_call2.v1 main_call2.v2 Host.divsi,
    StableHlo.TRef.unary (.of main_v2 : TRef sig ⟨S131072, .i32⟩) main_call2.v3 signi,
    StableHlo.TRef.unary main_call2.v0 main_call2.v4 signi,
    StableHlo.TRef.unary main_call2.v4 main_call2.v5 (broadcastInDim S131072 ![] bcast_S_S131072),
    StableHlo.TRef.binary main_call2.v3 main_call2.v5 main_call2.v6 (cmpi .ne),
    StableHlo.TRef.unary main_call2.v0 main_call2.v7 (broadcastInDim S131072 ![] bcast_S_S131072),
    StableHlo.TRef.binary (.of main_v2 : TRef sig ⟨S131072, .i32⟩) main_call2.v7 main_call2.v8 Host.remsi,
    StableHlo.TRef.nullary main_call2.c (constantI S_ 32 0#32),
    StableHlo.TRef.unary main_call2.c main_call2.v9 (broadcastInDim S131072 ![] bcast_S_S131072),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S131072 ![] bcast_S_S131072),
    StableHlo.TRef.binary main_call2.v2 main_call2.v12 main_call2.v13 subi,
    StableHlo.TRef.ternary main_call2.v11 main_call2.v13 main_call2.v2 main_call2.call0.v0 select,
    StableHlo.nullary main_c_2 (constantI S_ 32 32#32),
    StableHlo.TRef.unary (.of main_c_2 : TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S131072 ![] bcast_S_S131072),
    StableHlo.TRef.binary (.of main_v0 : TRef sig ⟨S131072, .i32⟩) main_call3.v3 main_call3.v4 Host.remsi,
    StableHlo.TRef.nullary main_call3.c_1 (constantI S_ 32 0#32),
    StableHlo.TRef.unary main_call3.c_1 main_call3.v5 (broadcastInDim S131072 ![] bcast_S_S131072),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S131072 ![] bcast_S_S131072),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S131072 ![] bcast_S_S131072),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S131072 ![] bcast_S_S131072),
    StableHlo.TRef.binary main_call3.v4 main_call3.v13 main_call3.v14 addi,
    StableHlo.TRef.ternary main_call3.v12 main_call3.v14 main_call3.v4 main_call3.v15 select,
    StableHlo.nullary main_c_3 (constantI S_ 32 0#32),
    StableHlo.unary main_c_3 main_v5 (broadcastInDim S131072 ![] bcast_S_S131072 : (⟨S_, .i32⟩ : BufTy).Contents (Elt F) → (⟨S131072, .i32⟩ : BufTy).Contents (Elt F)),
    StableHlo.binary main_v1 main_v5 main_v6 (cmpi .slt : (⟨S131072, .i32⟩ : BufTy).Contents (Elt F) → (⟨S131072, .i32⟩ : BufTy).Contents (Elt F) → (⟨S131072, .i1⟩ : BufTy).Contents (Elt F)),
    StableHlo.nullary main_c_4 (constantI S_ 32 64#32),
    StableHlo.unary main_c_4 main_v7 (broadcastInDim S131072 ![] bcast_S_S131072 : (⟨S_, .i32⟩ : BufTy).Contents (Elt F) → (⟨S131072, .i32⟩ : BufTy).Contents (Elt F)),
    StableHlo.binary main_v1 main_v7 main_v8 (addi : (⟨S131072, .i32⟩ : BufTy).Contents (Elt F) → (⟨S131072, .i32⟩ : BufTy).Contents (Elt F) → (⟨S131072, .i32⟩ : BufTy).Contents (Elt F)),
    StableHlo.ternary main_v6 main_v8 main_v1 main_v9 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_5 (constantI S_ 32 0#32),
    StableHlo.unary main_c_5 main_v10 (broadcastInDim S131072 ![] bcast_S_S131072 : (⟨S_, .i32⟩ : BufTy).Contents (Elt F) → (⟨S131072, .i32⟩ : BufTy).Contents (Elt F)),
    StableHlo.binary main_v3 main_v10 main_v11 (cmpi .slt : (⟨S131072, .i32⟩ : BufTy).Contents (Elt F) → (⟨S131072, .i32⟩ : BufTy).Contents (Elt F) → (⟨S131072, .i1⟩ : BufTy).Contents (Elt F)),
    StableHlo.nullary main_c_6 (constantI S_ 32 64#32),
    StableHlo.unary main_c_6 main_v12 (broadcastInDim S131072 ![] bcast_S_S131072 : (⟨S_, .i32⟩ : BufTy).Contents (Elt F) → (⟨S131072, .i32⟩ : BufTy).Contents (Elt F)),
    StableHlo.binary main_v3 main_v12 main_v13 (addi : (⟨S131072, .i32⟩ : BufTy).Contents (Elt F) → (⟨S131072, .i32⟩ : BufTy).Contents (Elt F) → (⟨S131072, .i32⟩ : BufTy).Contents (Elt F)),
    StableHlo.ternary main_v11 main_v13 main_v3 main_v14 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_7 (constantI S_ 32 0#32),
    StableHlo.unary main_c_7 main_v15 (broadcastInDim S131072 ![] bcast_S_S131072 : (⟨S_, .i32⟩ : BufTy).Contents (Elt F) → (⟨S131072, .i32⟩ : BufTy).Contents (Elt F)),
    StableHlo.binary main_v4 main_v15 main_v16 (cmpi .slt : (⟨S131072, .i32⟩ : BufTy).Contents (Elt F) → (⟨S131072, .i32⟩ : BufTy).Contents (Elt F) → (⟨S131072, .i1⟩ : BufTy).Contents (Elt F)),
    StableHlo.nullary main_c_8 (constantI S_ 32 32#32),
    StableHlo.unary main_c_8 main_v17 (broadcastInDim S131072 ![] bcast_S_S131072 : (⟨S_, .i32⟩ : BufTy).Contents (Elt F) → (⟨S131072, .i32⟩ : BufTy).Contents (Elt F)),
    StableHlo.binary main_v4 main_v17 main_v18 (addi : (⟨S131072, .i32⟩ : BufTy).Contents (Elt F) → (⟨S131072, .i32⟩ : BufTy).Contents (Elt F) → (⟨S131072, .i32⟩ : BufTy).Contents (Elt F)),
    StableHlo.ternary main_v16 main_v18 main_v4 main_v19 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v9 main_v20 (broadcastInDim S131072x1 ![0] bcast_S131072_S131072x1_0 : (⟨S131072, .i32⟩ : BufTy).Contents (Elt F) → (⟨S131072x1, .i32⟩ : BufTy).Contents (Elt F)),
    StableHlo.unary main_v14 main_v21 (broadcastInDim S131072x1 ![0] bcast_S131072_S131072x1_0 : (⟨S131072, .i32⟩ : BufTy).Contents (Elt F) → (⟨S131072x1, .i32⟩ : BufTy).Contents (Elt F)),
    StableHlo.unary main_v19 main_v22 (broadcastInDim S131072x1 ![0] bcast_S131072_S131072x1_0 : (⟨S131072, .i32⟩ : BufTy).Contents (Elt F) → (⟨S131072x1, .i32⟩ : BufTy).Contents (Elt F)),
    StableHlo.nary ![main_v20, main_v21, main_v22] main_v23 (fun u => concatenate S131072x3 1 [⟨S131072x1, u 0⟩, ⟨S131072x1, u 1⟩, ⟨S131072x1, u 2⟩] concatenates_S131072x1_S131072x1_S131072x1_S131072x3_d1),
    StableHlo.binary main_arg1 main_v23 main_v24 ((fun x i => Host.gather gather_S64x64x32x64_S131072x3_S131072x64_1_012_n_n_012_1_11164 x i) : (⟨S64x64x32x64, .f32⟩ : BufTy).Contents (Elt F) → (⟨S131072x3, .i32⟩ : BufTy).Contents (Elt F) → (⟨S131072x64, .f32⟩ : BufTy).Contents (Elt F)),
    StableHlo.unary main_arg2 main_v25 ((transpose S64x64 [1, 0] · transposes_S64x64_S64x64_1_0) : (⟨S64x64, .f32⟩ : BufTy).Contents (Elt F) → (⟨S64x64, .f32⟩ : BufTy).Contents (Elt F)),
    StableHlo.binary main_v24 main_v25 main_v26 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.unary main_arg3 main_v27 (broadcastInDim S1x64 ![1] bcast_S64_S1x64_1 : (⟨S64, .f32⟩ : BufTy).Contents (Elt F) → (⟨S1x64, .f32⟩ : BufTy).Contents (Elt F)),
    StableHlo.unary main_v27 main_v28 (broadcastInDim S131072x64 ![0, 1] bcast_S1x64_S131072x64_0_1 : (⟨S1x64, .f32⟩ : BufTy).Contents (Elt F) → (⟨S131072x64, .f32⟩ : BufTy).Contents (Elt F)),
    StableHlo.binary main_v26 main_v28 main_v29 (addf : (⟨S131072x64, .f32⟩ : BufTy).Contents (Elt F) → (⟨S131072x64, .f32⟩ : BufTy).Contents (Elt F) → (⟨S131072x64, .f32⟩ : BufTy).Contents (Elt F)),
    StableHlo.unary main_v29 main_v30 (broadcastInDim S1x131072x64 ![1, 2] bcast_S131072x64_S1x131072x64_1_2 : (⟨S131072x64, .f32⟩ : BufTy).Contents (Elt F) → (⟨S1x131072x64, .f32⟩ : BufTy).Contents (Elt F)),
    StableHlo.unary main_v30 main_v31 (broadcastInDim S8x131072x64 ![0, 1, 2] bcast_S1x131072x64_S8x131072x64_0_1_2 : (⟨S1x131072x64, .f32⟩ : BufTy).Contents (Elt F) → (⟨S8x131072x64, .f32⟩ : BufTy).Contents (Elt F)),
    StableHlo.binary main_arg0 main_v31 main_v32 (addf : (⟨S8x131072x64, .f32⟩ : BufTy).Contents (Elt F) → (⟨S8x131072x64, .f32⟩ : BufTy).Contents (Elt F) → (⟨S8x131072x64, .f32⟩ : BufTy).Contents (Elt F)) ]

set_option maxRecDepth 8192 in
set_option maxHeartbeats 1000000 in
/-- The program is that straight line: a callee's body is a chain of single operations ending in the return, and
    sequencing such a chain before the rest of the program is, by the definition of sequencing, the chain continued by
    the rest; so with the callees' bodies unfolded at their calls both sides are the same chain, by computation. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., nary_bufs_sub .., binary_bufs_sub .., unary_bufs_sub ..,
    binary_bufs_sub .., unary_bufs_sub .., unary_bufs_sub .., binary_bufs_sub .., unary_bufs_sub .., unary_bufs_sub ..,
    binary_bufs_sub ..⟩

/-- From any memory with zero counters every weakly fair execution of the program terminates, and every buffer ends at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the line leaves in a buffer

The fold of the operations at one buffer is computed by rewriting: an operation at its own result buffer gives its
function of the operands' contents, at any other buffer what was there before it (the two references are told apart
by deciding their equality). One pass of these rewrites resolves every operand that is an argument of a function.
It does not reach the three operands of the concatenation, which sit inside a list of (shape, contents) pairs; so the
line is cut there: the three columns and the four arguments are read after the first 105 operations, for any launch
contents, and the last ten operations are then run over those. -/

/-- One pass of the result rewrites. -/
local macro "fold_results" : tactic =>
  `(tactic| simp (disch := decide) only [after_cons, after_nil,
      nullary_result', unary_result', binary_result', ternary_result', nary_result',
      nullary_result_ne', unary_result_ne', binary_result_ne', ternary_result_ne', nary_result_ne', Matrix.cons_val])

/-- Running a line is running its first `k` operations and then the rest. -/
theorem after_take_drop {τ : Topo} {sig : RefSig} {Val : EltTy → Type} (k : Nat) :
    ∀ (l : List (HloOp τ sig Val)) (V : Valuation τ sig Val), after l V = after (l.drop k) (after (l.take k) V) := by
  induction k with
  | zero => intro l V; rfl
  | succ k ih =>
    intro l V
    cases l with
    | nil => rfl
    | cons op l => exact ih l (op.result V)

attribute [local irreducible] Host.gather Host.divsi Host.remsi concatenate iotaInDim signi in
set_option maxRecDepth 16384 in
set_option maxHeartbeats 4000000 in
/-- Before the concatenation, the first column holds the first voxel coordinate of every row, for any launch contents. -/
theorem v20_pre (V : Valuation τ sig (Elt F)) :
    after (ops.take 105) V (main_v20 : DevRef τ sig)
      = RefTerm.col (RefTerm.wrap (RefTerm.floorDiv RefTerm.pos (constantI S_ 32 2048#32)) 64#32) := by
  simp only [ops, List.take]
  fold_results
  rfl

attribute [local irreducible] Host.gather Host.divsi Host.remsi concatenate iotaInDim signi in
set_option maxRecDepth 16384 in
set_option maxHeartbeats 4000000 in
/-- Before the concatenation, the second column holds the second voxel coordinate of every row, for any launch contents. -/
theorem v21_pre (V : Valuation τ sig (Elt F)) :
    after (ops.take 105) V (main_v21 : DevRef τ sig)
      = RefTerm.col (RefTerm.wrap (RefTerm.floorDiv (RefTerm.floorMod RefTerm.pos (constantI S_ 32 2048#32)) (constantI S_ 32 32#32)) 64#32) := by
  simp only [ops, List.take]
  fold_results
  rfl

attribute [local irreducible] Host.gather Host.divsi Host.remsi concatenate iotaInDim signi in
set_option maxRecDepth 16384 in
set_option maxHeartbeats 4000000 in
/-- Before the concatenation, the third column holds the third voxel coordinate of every row, for any launch contents. -/
theorem v22_pre (V : Valuation τ sig (Elt F)) :
    after (ops.take 105) V (main_v22 : DevRef τ sig)
      = RefTerm.col (RefTerm.wrap (RefTerm.floorMod RefTerm.pos (constantI S_ 32 32#32)) 32#32) := by
  simp only [ops, List.take]
  fold_results
  rfl

/-! After those 105 operations the arguments are as at launch. -/

set_option maxRecDepth 16384 in
set_option maxHeartbeats 1000000 in
theorem arg0_pre (V : Valuation τ sig (Elt F)) :
    after (ops.take 105) V (main_arg0 : DevRef τ sig) = V (main_arg0 : DevRef τ sig) := by
  simp only [ops, List.take]
  fold_results

set_option maxRecDepth 16384 in
set_option maxHeartbeats 1000000 in
theorem arg1_pre (V : Valuation τ sig (Elt F)) :
    after (ops.take 105) V (main_arg1 : DevRef τ sig) = V (main_arg1 : DevRef τ sig) := by
  simp only [ops, List.take]
  fold_results

set_option maxRecDepth 16384 in
set_option maxHeartbeats 1000000 in
theorem arg2_pre (V : Valuation τ sig (Elt F)) :
    after (ops.take 105) V (main_arg2 : DevRef τ sig) = V (main_arg2 : DevRef τ sig) := by
  simp only [ops, List.take]
  fold_results

set_option maxRecDepth 16384 in
set_option maxHeartbeats 1000000 in
theorem arg3_pre (V : Valuation τ sig (Elt F)) :
    after (ops.take 105) V (main_arg3 : DevRef τ sig) = V (main_arg3 : DevRef τ sig) := by
  simp only [ops, List.take]
  fold_results

attribute [local irreducible] Host.gather Host.divsi Host.remsi concatenate iotaInDim signi in
set_option maxRecDepth 16384 in
set_option maxHeartbeats 4000000 in
/-- The fold at the result buffer is `RefTerm.out` of the arguments' contents: the first 105 operations leave the three
    columns at the three wrapped voxel coordinates and the arguments as they were; the last ten, run over any contents
    with those seven buffers so, give the gathered code times the transposed weight plus the bias, broadcast over the
    batch and added to the features, which is `RefTerm.out` with its stages unfolded. The gather, the host division and
    remainder, the concatenation, the row numbers and the sign are kept folded meanwhile: the equation never looks
    inside them. -/
theorem out_eq (V : Valuation τ sig (Elt F)) :
    after ops V (main_v32 : DevRef τ sig)
      = RefTerm.out (V (main_arg0 : DevRef τ sig)) (V (main_arg1 : DevRef τ sig)) (V (main_arg2 : DevRef τ sig))
          (V (main_arg3 : DevRef τ sig)) := by
  have h20 := v20_pre V
  have h21 := v21_pre V
  have h22 := v22_pre V
  have a0 := arg0_pre V
  have a1 := arg1_pre V
  have a2 := arg2_pre V
  have a3 := arg3_pre V
  rw [after_take_drop 105 ops V]
  generalize after (ops.take 105) V = W at h20 h21 h22 a0 a1 a2 a3 ⊢
  simp only [ops, List.drop]
  fold_results
  rw [h20, h21, h22, a0, a1, a2, a3]
  rfl

/-! No operation writes an argument's buffer: each ends at its launch contents. -/

set_option maxRecDepth 16384 in
set_option maxHeartbeats 1000000 in
theorem arg0_eq (V : Valuation τ sig (Elt F)) :
    after ops V (main_arg0 : DevRef τ sig) = V (main_arg0 : DevRef τ sig) := by
  fold_results

set_option maxRecDepth 16384 in
set_option maxHeartbeats 1000000 in
theorem arg1_eq (V : Valuation τ sig (Elt F)) :
    after ops V (main_arg1 : DevRef τ sig) = V (main_arg1 : DevRef τ sig) := by
  fold_results

set_option maxRecDepth 16384 in
set_option maxHeartbeats 1000000 in
theorem arg2_eq (V : Valuation τ sig (Elt F)) :
    after ops V (main_arg2 : DevRef τ sig) = V (main_arg2 : DevRef τ sig) := by
  fold_results

set_option maxRecDepth 16384 in
set_option maxHeartbeats 1000000 in
theorem arg3_eq (V : Valuation τ sig (Elt F)) :
    after ops V (main_arg3 : DevRef τ sig) = V (main_arg3 : DevRef τ sig) := by
  fold_results

/-- From any memory with zero counters every weakly fair execution of the program terminates with the result buffer at
    `RefTerm.out` of the four arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = RefTerm.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c main_v32).trans (out_eq _), (h c main_arg0).trans (arg0_eq _), (h c main_arg1).trans (arg1_eq _),
      (h c main_arg2).trans (arg2_eq _), (h c main_arg3).trans (arg3_eq _)⟩)
    (run_main m ρ)

end Cert.ReferenceIdeal.RefRun

end
-- ==== Proof.Words.lean ====
/-
  Words: floored division, floored remainder and index wrapping on 32-bit words that hold small natural numbers.

  For `0 ≤ n < 2³¹` and `0 < k < 2³¹` the signed truncated quotient and remainder of the words of `n` and `k` are the
  words of `n / k` and `n % k`: no sign enters, and no corner of signed division is met.  Floored division corrects the
  truncated quotient only where the operands' signs differ and the remainder is not zero; floored remainder corrects only
  where the remainder is not zero and its sign differs from the divisor's; wrapping adds the extent only to a negative
  word.  None of the corrections fires on such operands, so all three read as the plain quotient, remainder and word.
-/
import Idealize.ShloMosaic.Lib.Affine
import Idealize.ShloMosaic.Lib.ValueIdx

noncomputable section

namespace Cert.Words

open Idealize.ShloMosaic Idealize.ShloMosaic.ValueIdx

/-- The sign of a word: `0`, `-1` or `1`. -/
def sgn (x : BitVec 32) : BitVec 32 := if x = 0 then 0 else if x.msb then -1 else 1

/-- Floored division of words. -/
def floorDivW (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- The divisor a floored remainder divides by: `1` in place of `0`. -/
def safeDivW (d : BitVec 32) : BitVec 32 := Scalar.select (IntOp.cmpi .eq d 0#32) 1#32 d

/-- Floored remainder of words. -/
def floorModW (x d : BitVec 32) : BitVec 32 :=
  Scalar.select (IntOp.andi (IntOp.cmpi .ne (IntOp.cmpi .slt (IntOp.remsi .host x (safeDivW d)) 0#32)
        (IntOp.cmpi .slt (safeDivW d) 0#32))
      (IntOp.cmpi .ne (IntOp.remsi .host x (safeDivW d)) 0#32))
    (IntOp.addi (IntOp.remsi .host x (safeDivW d)) (safeDivW d)) (IntOp.remsi .host x (safeDivW d))

/-- A negative word wrapped by the extent `k`. -/
def wrapW (x k : BitVec 32) : BitVec 32 := Scalar.select (IntOp.cmpi .slt x 0#32) (IntOp.addi x k) x

theorem toNat_ofNat_lt (n : Nat) (hn : n < 2 ^ 31) : (BitVec.ofNat 32 n).toNat = n := by
  rw [BitVec.toNat_ofNat]; omega

theorem msb_ofNat_lt (n : Nat) (hn : n < 2 ^ 31) : (BitVec.ofNat 32 n).msb = false := by
  rw [BitVec.msb_eq_false_iff_two_mul_lt, toNat_ofNat_lt n hn]; omega

theorem toInt_ofNat_lt (n : Nat) (hn : n < 2 ^ 31) : (BitVec.ofNat 32 n).toInt = n := by
  rw [BitVec.toInt_eq_toNat_of_lt (by rw [toNat_ofNat_lt n hn]; omega), toNat_ofNat_lt n hn]

theorem ofNat_ne_zero (k : Nat) (hk : 0 < k) (hk' : k < 2 ^ 31) : BitVec.ofNat 32 k ≠ 0#32 := by
  intro h
  have := congrArg BitVec.toNat h
  rw [toNat_ofNat_lt k hk'] at this
  simp at this; omega

/-- The truncated signed quotient of two such words is the word of the quotient. -/
theorem divsi_ofNat (u : ArithUnit) (n k : Nat) (hn : n < 2 ^ 31) (hk : 0 < k) (hk' : k < 2 ^ 31) :
    IntOp.divsi u (BitVec.ofNat 32 n) (BitVec.ofNat 32 k) = BitVec.ofNat 32 (n / k) := by
  have hcorner : ¬ IntOp.SDivCorner (BitVec.ofNat 32 n) (BitVec.ofNat 32 k) :=
    IntOp.not_corner_of_pos (by rw [toInt_ofNat_lt k hk']; exact_mod_cast hk)
  have hdiv : n / k < 2 ^ 31 := lt_of_le_of_lt (Nat.div_le_self n k) hn
  apply BitVec.eq_of_toNat_eq
  simp only [IntOp.divsi, if_neg hcorner, BitVec.sdiv_eq, msb_ofNat_lt n hn, msb_ofNat_lt k hk', BitVec.udiv_eq,
    BitVec.toNat_udiv, toNat_ofNat_lt n hn, toNat_ofNat_lt k hk', toNat_ofNat_lt (n / k) hdiv]

/-- The truncated signed remainder of two such words is the word of the remainder. -/
theorem remsi_ofNat (u : ArithUnit) (n k : Nat) (hn : n < 2 ^ 31) (hk : 0 < k) (hk' : k < 2 ^ 31) :
    IntOp.remsi u (BitVec.ofNat 32 n) (BitVec.ofNat 32 k) = BitVec.ofNat 32 (n % k) := by
  have hmod : n % k < 2 ^ 31 := lt_of_le_of_lt (Nat.mod_le n k) hn
  apply BitVec.eq_of_toNat_eq
  rw [IntOp.toNat_remsi u (by rw [toNat_ofNat_lt n hn]; omega) k hk (by omega), toNat_ofNat_lt n hn, toNat_ofNat_lt (n % k) hmod]

/-- The sign of a positive small word is `1`. -/
theorem sgn_ofNat_pos (k : Nat) (hk : 0 < k) (hk' : k < 2 ^ 31) : sgn (BitVec.ofNat 32 k) = 1 := by
  have h0 : ¬ BitVec.ofNat 32 k = 0 := ofNat_ne_zero k hk hk'
  unfold sgn
  rw [if_neg h0, msb_ofNat_lt k hk']
  rfl

/-- Floored division of two such words is the word of the quotient: where the dividend is not zero the signs agree, and
    where it is zero so is the remainder. -/
theorem floorDivW_ofNat (n k : Nat) (hn : n < 2 ^ 31) (hk : 0 < k) (hk' : k < 2 ^ 31) :
    floorDivW (BitVec.ofNat 32 n) (BitVec.ofNat 32 k) = BitVec.ofNat 32 (n / k) := by
  unfold floorDivW
  rw [divsi_ofNat .host n k hn hk hk', remsi_ofNat .host n k hn hk hk']
  refine (if_neg ?_ : Scalar.select _ _ _ = _)
  change ¬ (_ = 1#1)
  rw [IntOp.andi_eq_one, IntOp.cmpi_ne, IntOp.cmpi_ne]
  rintro ⟨h1, h2⟩
  rcases Nat.eq_zero_or_pos n with h0 | hpos
  · subst h0; exact h2 (by simp)
  · exact h1 (by rw [sgn_ofNat_pos n hpos hn, sgn_ofNat_pos k hk hk'])

/-- The safe divisor of a positive word is the word. -/
theorem safeDivW_ofNat (k : Nat) (hk : 0 < k) (hk' : k < 2 ^ 31) : safeDivW (BitVec.ofNat 32 k) = BitVec.ofNat 32 k := by
  unfold safeDivW
  refine (if_neg ?_ : Scalar.select _ _ _ = _)
  change ¬ (_ = 1#1)
  rw [IntOp.cmpi_eq]
  exact ofNat_ne_zero k hk hk'

/-- A small word is not negative. -/
theorem not_slt_zero (n : Nat) (hn : n < 2 ^ 31) : ¬ IntOp.cmpi .slt (BitVec.ofNat 32 n) 0#32 = 1#1 := by
  rw [IntOp.cmpi_slt, toInt_ofNat_lt n hn]
  show ¬ ((n : Int) < 0)
  omega

/-- Floored remainder of two such words is the word of the remainder: neither the remainder nor the divisor is negative. -/
theorem floorModW_ofNat (n k : Nat) (hn : n < 2 ^ 31) (hk : 0 < k) (hk' : k < 2 ^ 31) :
    floorModW (BitVec.ofNat 32 n) (BitVec.ofNat 32 k) = BitVec.ofNat 32 (n % k) := by
  have hmod : n % k < 2 ^ 31 := lt_of_le_of_lt (Nat.mod_le n k) hn
  unfold floorModW
  rw [safeDivW_ofNat k hk hk', remsi_ofNat .host n k hn hk hk']
  refine (if_neg ?_ : Scalar.select _ _ _ = _)
  change ¬ (_ = 1#1)
  rw [IntOp.andi_eq_one, IntOp.cmpi_ne]
  rintro ⟨h1, -⟩
  rw [eq_zero_of_ne_one (not_slt_zero (n % k) hmod), eq_zero_of_ne_one (not_slt_zero k hk')] at h1
  exact h1 rfl

/-- Wrapping leaves a small word alone. -/
theorem wrapW_ofNat (n : Nat) (hn : n < 2 ^ 31) (k : BitVec 32) : wrapW (BitVec.ofNat 32 n) k = BitVec.ofNat 32 n :=
  (if_neg (not_slt_zero n hn) : Scalar.select _ _ _ = _)

end Cert.Words

end
-- ==== Proof.RefIndex.lean ====
/-
  The reference's start indices, read at a row.

  Every stage of the index computation acts row by row, so at row `n` it is the corresponding operation on words applied to
  the word of `n`.  The row number is below 2¹⁷ and the divisors are 2048 and 32, so floored division and remainder are the
  natural quotient and remainder and no coordinate is negative: row `n`'s start index is the word triple
  `(n / 2048, n % 2048 / 32, n % 32)`.
-/
import proofs.«102138_j22247930593290_1_alg».proof.Proof.RefTerm
import proofs.«102138_j22247930593290_1_alg».proof.Proof.Words
import Idealize.ShloMosaic.Lib.IdealHost
import Idealize.ShloMosaic.Lib.Pipeline.Value

noncomputable section

namespace Cert.ReferenceIdeal.RefIndex

open Cert.ReferenceIdeal Cert.ReferenceIdeal.Gen Cert.ReferenceIdeal.RefTerm Cert.Words
open Idealize.ShloMosaic Idealize.ShloMosaic.ValueIdx Idealize.SL.Sem

/-- A scalar repeated over the rows reads the scalar at every row. -/
theorem rows_apply {w : Nat} (x : IVec S_ w) (i : S131072.Idx) : rows x i = x ix0 :=
  broadcastInDim_scalar_apply _ x i

/-- Floored division acts row by row. -/
theorem floorDiv_apply (x : IVec S131072 32) (d : IVec S_ 32) (i : S131072.Idx) :
    floorDiv x d i = floorDivW (x i) (d ix0) := by
  unfold floorDiv floorDivW
  simp only [select, andi, cmpi, signi, Host.remsi, Host.divsi, subi, rows_apply, constantI]
  rfl

/-- Floored remainder acts row by row. -/
theorem floorMod_apply (x : IVec S131072 32) (d : IVec S_ 32) (i : S131072.Idx) :
    floorMod x d i = floorModW (x i) (d ix0) := by
  unfold floorMod floorModW safeDiv safeDivW
  simp only [select, andi, cmpi, Host.remsi, addi, rows_apply, constantI]

/-- Wrapping acts row by row. -/
theorem wrap_apply (x : IVec S131072 32) (k : BitVec 32) (i : S131072.Idx) : wrap x k i = wrapW (x i) k := by
  unfold wrap wrapW
  simp only [select, cmpi, addi, rows_apply, constantI]

/-- A row vector as one column reads the row's entry. -/
theorem col_apply (x : IVec S131072 32) (n : Fin 131072) : col x (ix2 n (0 : Fin 1)) = x (ix1 n) :=
  broadcastInDim_apply _ _ x _ _ fun a => match a with | ⟨0, _⟩ => rfl

/-- The first coordinate of row `n`. -/
theorem coord0 (n : Fin 131072) :
    wrap (floorDiv pos (constantI S_ 32 2048#32)) 64#32 (ix1 n) = BitVec.ofNat 32 (n.val / 2048) := by
  have hn : n.val < 2 ^ 31 := lt_trans n.isLt (by decide)
  rw [wrap_apply, floorDiv_apply]
  show wrapW (floorDivW (BitVec.ofNat 32 n.val) (BitVec.ofNat 32 2048)) 64#32 = _
  rw [floorDivW_ofNat n.val 2048 hn (by decide) (by decide)]
  exact wrapW_ofNat _ (lt_of_le_of_lt (Nat.div_le_self _ _) hn) _

/-- The second coordinate of row `n`. -/
theorem coord1 (n : Fin 131072) :
    wrap (floorDiv (floorMod pos (constantI S_ 32 2048#32)) (constantI S_ 32 32#32)) 64#32 (ix1 n)
      = BitVec.ofNat 32 (n.val % 2048 / 32) := by
  have hn : n.val < 2 ^ 31 := lt_trans n.isLt (by decide)
  have hm : n.val % 2048 < 2 ^ 31 := lt_of_le_of_lt (Nat.mod_le _ _) hn
  rw [wrap_apply, floorDiv_apply, floorMod_apply]
  show wrapW (floorDivW (floorModW (BitVec.ofNat 32 n.val) (BitVec.ofNat 32 2048)) (BitVec.ofNat 32 32)) 64#32 = _
  rw [floorModW_ofNat n.val 2048 hn (by decide) (by decide), floorDivW_ofNat (n.val % 2048) 32 hm (by decide) (by decide)]
  exact wrapW_ofNat _ (lt_of_le_of_lt (Nat.div_le_self _ _) hm) _

/-- The third coordinate of row `n`. -/
theorem coord2 (n : Fin 131072) :
    wrap (floorMod pos (constantI S_ 32 32#32)) 32#32 (ix1 n) = BitVec.ofNat 32 (n.val % 32) := by
  have hn : n.val < 2 ^ 31 := lt_trans n.isLt (by decide)
  rw [wrap_apply, floorMod_apply]
  show wrapW (floorModW (BitVec.ofNat 32 n.val) (BitVec.ofNat 32 32)) 32#32 = _
  rw [floorModW_ofNat n.val 32 hn (by decide) (by decide)]
  exact wrapW_ofNat _ (lt_of_le_of_lt (Nat.mod_le _ _) hn) _

/-- Row `n`'s start index, first component. -/
theorem starts0 (n : Fin 131072) : starts (ix2 n (0 : Fin 3)) = BitVec.ofNat 32 (n.val / 2048) := by
  unfold starts
  rw [concatenate_apply_piece 1 _ _ (ix2 n (0 : Fin 3)) 0 (by decide) S131072x1 _ rfl rfl 0 rfl (ix2 n (0 : Fin 1))
    (fun b hb => match b, hb with | ⟨0, _⟩, _ => rfl | ⟨1, _⟩, hb => absurd rfl hb) rfl]
  rw [col_apply, coord0]

/-- Row `n`'s start index, second component. -/
theorem starts1 (n : Fin 131072) : starts (ix2 n (1 : Fin 3)) = BitVec.ofNat 32 (n.val % 2048 / 32) := by
  unfold starts
  rw [concatenate_apply_piece 1 _ _ (ix2 n (1 : Fin 3)) 1 (by decide) S131072x1 _ rfl rfl 1 rfl (ix2 n (0 : Fin 1))
    (fun b hb => match b, hb with | ⟨0, _⟩, _ => rfl | ⟨1, _⟩, hb => absurd rfl hb) rfl]
  rw [col_apply, coord1]

/-- Row `n`'s start index, third component. -/
theorem starts2 (n : Fin 131072) : starts (ix2 n (2 : Fin 3)) = BitVec.ofNat 32 (n.val % 32) := by
  unfold starts
  rw [concatenate_apply_piece 1 _ _ (ix2 n (2 : Fin 3)) 2 (by decide) S131072x1 _ rfl rfl 2 rfl (ix2 n (0 : Fin 1))
    (fun b hb => match b, hb with | ⟨0, _⟩, _ => rfl | ⟨1, _⟩, hb => absurd rfl hb) rfl]
  rw [col_apply, coord2]

end Cert.ReferenceIdeal.RefIndex

end
-- ==== Proof.RefGather.lean ====
/-
  The reference's gather, read at an index.

  The gather takes, for each row, a start index of three components and returns the 64 entries of the operand at that
  voxel: the three leading operand axes are collapsed (slice size 1) and addressed by the start index, the last axis is
  kept whole and addressed by the result's second coordinate.  A start component is read signed and clamped into its
  axis; for components that are already in range the clamp does nothing, so the result at `(n, c)` is the operand at
  `(x, y, z, c)`, where `(x, y, z)` is row `n`'s start index.
-/
import proofs.«102138_j22247930593290_1_alg».proof.Proof.Gen.ReferenceIdeal
import proofs.«102138_j22247930593290_1_alg».proof.Proof.Words
import Idealize.ShloMosaic.Lib.ValueIdx

noncomputable section

namespace Cert.ReferenceIdeal.RefGather

open Cert.ReferenceIdeal Cert.ReferenceIdeal.Gen Idealize.ShloMosaic Idealize.ShloMosaic.ValueIdx Idealize.SL.Sem

/-- The gather's dimension numbers. -/
abbrev Gd : GatherDims S64x64x32x64 S131072x3 S131072x64 := gather_S64x64x32x64_S131072x3_S131072x64_1_012_n_n_012_1_11164

/-- A small word read signed, clamped into an axis it already lies in. -/
theorem clamp_ofNat (v hi : Nat) (hv : v ≤ hi) (hhi : hi < 2 ^ 31) : min (BitVec.ofNat 32 v).toInt.toNat hi = v := by
  rw [Cert.Words.toInt_ofNat_lt v (by omega), Int.toNat_natCast]
  exact Nat.min_eq_left hv

/-- The slice start on the first operand axis is the first start component. -/
theorem start0 (idx : IVec S131072x3 32) (n : Fin 131072) (c : Fin 64) (v : Nat)
    (hv : idx (ix2 n (0 : Fin 3)) = BitVec.ofNat 32 v) (hlt : v < 64) : Gd.start (ix2 n c) idx (0 : Fin 4) = v := by
  unfold GatherDims.start
  rw [dif_pos (show (0 : Fin 4) ∈ Gd.startIndexMap by decide)]
  have hsi : Gd.siIdx (ix2 n c) ⟨List.idxOf (0 : Fin 4) Gd.startIndexMap, List.idxOf_lt_length_iff.2 (by decide)⟩
      = ix2 n (0 : Fin 3) := by
    funext b; refine Fin.ext ?_
    match b with
    | ⟨0, _⟩ => rfl
    | ⟨1, _⟩ => rfl
  rw [hsi, hv]
  exact clamp_ofNat v 63 (by omega) (by decide)

/-- The slice start on the second operand axis is the second start component. -/
theorem start1 (idx : IVec S131072x3 32) (n : Fin 131072) (c : Fin 64) (v : Nat)
    (hv : idx (ix2 n (1 : Fin 3)) = BitVec.ofNat 32 v) (hlt : v < 64) : Gd.start (ix2 n c) idx (1 : Fin 4) = v := by
  unfold GatherDims.start
  rw [dif_pos (show (1 : Fin 4) ∈ Gd.startIndexMap by decide)]
  have hsi : Gd.siIdx (ix2 n c) ⟨List.idxOf (1 : Fin 4) Gd.startIndexMap, List.idxOf_lt_length_iff.2 (by decide)⟩
      = ix2 n (1 : Fin 3) := by
    funext b; refine Fin.ext ?_
    match b with
    | ⟨0, _⟩ => rfl
    | ⟨1, _⟩ => rfl
  rw [hsi, hv]
  exact clamp_ofNat v 63 (by omega) (by decide)

/-- The slice start on the third operand axis is the third start component. -/
theorem start2 (idx : IVec S131072x3 32) (n : Fin 131072) (c : Fin 64) (v : Nat)
    (hv : idx (ix2 n (2 : Fin 3)) = BitVec.ofNat 32 v) (hlt : v < 32) : Gd.start (ix2 n c) idx (2 : Fin 4) = v := by
  unfold GatherDims.start
  rw [dif_pos (show (2 : Fin 4) ∈ Gd.startIndexMap by decide)]
  have hsi : Gd.siIdx (ix2 n c) ⟨List.idxOf (2 : Fin 4) Gd.startIndexMap, List.idxOf_lt_length_iff.2 (by decide)⟩
      = ix2 n (2 : Fin 3) := by
    funext b; refine Fin.ext ?_
    match b with
    | ⟨0, _⟩ => rfl
    | ⟨1, _⟩ => rfl
  rw [hsi, hv]
  exact clamp_ofNat v 31 (by omega) (by decide)

/-- THE GATHER READ AT `(n, c)`: the operand at the voxel row `n`'s start index names, entry `c`. -/
theorem gather_voxel {α : Type} (pe : S64x64x32x64.Idx → α) (idx : IVec S131072x3 32) (n : Fin 131072) (c : Fin 64)
    (x y : Fin 64) (z : Fin 32)
    (h0 : idx (ix2 n (0 : Fin 3)) = BitVec.ofNat 32 x.val) (h1 : idx (ix2 n (1 : Fin 3)) = BitVec.ofNat 32 y.val)
    (h2 : idx (ix2 n (2 : Fin 3)) = BitVec.ofNat 32 z.val) :
    Host.gather Gd pe idx (ix2 n c) = pe (ix4 x y z c) := by
  unfold Host.gather
  congr 1
  funext a
  refine Fin.ext ?_
  show Gd.start (ix2 n c) idx a + Gd.batchCoord (ix2 n c) a + Gd.offCoord (ix2 n c) a = _
  rw [GatherDims.batchCoord_eq_zero _ _ _ List.not_mem_nil, Nat.add_zero]
  match a with
  | ⟨0, _⟩ =>
    show Gd.start (ix2 n c) idx (0 : Fin 4) + Gd.offCoord (ix2 n c) (0 : Fin 4) = x.val
    rw [GatherDims.offCoord_eq_zero _ _ _ (fun h => ((GatherDims.mem_sKept _ _).mp h).1
      (show (0 : Fin 4) ∈ Gd.collapsedSliceDims from by decide)), Nat.add_zero]
    exact start0 idx n c x.val h0 x.isLt
  | ⟨1, _⟩ =>
    show Gd.start (ix2 n c) idx (1 : Fin 4) + Gd.offCoord (ix2 n c) (1 : Fin 4) = y.val
    rw [GatherDims.offCoord_eq_zero _ _ _ (fun h => ((GatherDims.mem_sKept _ _).mp h).1
      (show (1 : Fin 4) ∈ Gd.collapsedSliceDims from by decide)), Nat.add_zero]
    exact start1 idx n c y.val h1 y.isLt
  | ⟨2, _⟩ =>
    show Gd.start (ix2 n c) idx (2 : Fin 4) + Gd.offCoord (ix2 n c) (2 : Fin 4) = z.val
    rw [GatherDims.offCoord_eq_zero _ _ _ (fun h => ((GatherDims.mem_sKept _ _).mp h).1
      (show (2 : Fin 4) ∈ Gd.collapsedSliceDims from by decide)), Nat.add_zero]
    exact start2 idx n c z.val h2 z.isLt
  | ⟨3, _⟩ =>
    have hs : Gd.start (ix2 n c) idx (3 : Fin 4) = 0 := by
      unfold GatherDims.start
      rw [dif_neg (show ¬ (3 : Fin 4) ∈ Gd.startIndexMap by decide)]
    have ho : Gd.offCoord (ix2 n c) (3 : Fin 4) = c.val := by
      unfold GatherDims.offCoord
      rw [dif_pos (show (3 : Fin 4) ∈ Gd.sKept by decide)]
      rfl
    show Gd.start (ix2 n c) idx (3 : Fin 4) + Gd.offCoord (ix2 n c) (3 : Fin 4) = c.val
    rw [hs, ho, Nat.zero_add]

end Cert.ReferenceIdeal.RefGather

end
-- ==== Proof.RefValue.lean ====
/-
  The reference's result is the specified function.

  At an index `(β, n, c)` the reference's term is `feat[β, n, c]` plus its projected code at `(n, c)` (two broadcasts over the
  batch axis read through).  The projected code is a matrix product plus the bias: the product at `(n, c)` is the sum over
  the one contracted axis, `Σ k, gathered[n, k] · Wᵀ[k, c]`; the gathered entry is the positional code at row `n`'s voxel
  (the start indices are the voxel coordinates, all in range), the transposed weight at `(k, c)` is `W[c, k]`, and the bias
  broadcast down the rows reads `b[c]`.
-/
import proofs.«102138_j22247930593290_1_alg».proof.Proof.RefIndex
import proofs.«102138_j22247930593290_1_alg».proof.Proof.RefGather
import proofs.«102138_j22247930593290_1_alg».proof.Proof.Spec
import Idealize.ShloMosaic.PureOps.Ideal.Laws
import Idealize.ShloMosaic.Lib.ValueLayout
import Idealize.ShloMosaic.Lib.KernelVsHost

noncomputable section

open scoped BigOperators

namespace Cert.ReferenceIdeal.RefValue

open Cert.ReferenceIdeal Cert.ReferenceIdeal.Gen Cert.ReferenceIdeal.RefTerm Cert.ReferenceIdeal.RefIndex Cert.ReferenceIdeal.RefGather
open Idealize.ShloMosaic Idealize.ShloMosaic.ValueIdx Idealize.SL.Sem

/-- The product's dimension numbers: rows × contraction times contraction × columns. -/
abbrev Dd : DotDims S131072x64 S64x64 S131072x64 := dot_S131072x64_S64x64_S131072x64_1_0_0_1_n_n

/-- The left operand's row is the result's row. -/
theorem lhs_row (j : S131072x64.Idx) (k : Dd.contr.Idx) : (Dd.lhsIdx j k (0 : Fin 2)).val = (j 0).val := by
  unfold DotDims.lhsIdx
  rw [dif_neg (show ¬ (0 : Fin 2) ∈ Dd.lhsBatch by decide), dif_pos (show (0 : Fin 2) ∈ Dd.lhsNonContracting by decide)]
  rfl

/-- The left operand's column is the contraction position. -/
theorem lhs_contr (j : S131072x64.Idx) (k : Dd.contr.Idx) : (Dd.lhsIdx j k (1 : Fin 2)).val = (k ⟨0, by decide⟩).val :=
  DotDims.lhsIdx_val_of_single Dd rfl j k

/-- The right operand's row is the contraction position. -/
theorem rhs_contr (j : S131072x64.Idx) (k : Dd.contr.Idx) : (Dd.rhsIdx j k (0 : Fin 2)).val = (k ⟨0, by decide⟩).val :=
  DotDims.rhsIdx_val_of_single Dd rfl j k

/-- The right operand's column is the result's column. -/
theorem rhs_col (j : S131072x64.Idx) (k : Dd.contr.Idx) : (Dd.rhsIdx j k (1 : Fin 2)).val = (j 1).val := by
  unfold DotDims.rhsIdx
  rw [dif_neg (show ¬ (1 : Fin 2) ∈ Dd.rhsBatch by decide), dif_pos (show (1 : Fin 2) ∈ Dd.rhsNonContracting by decide)]
  rfl

/-- The product at `(n, c)` is the sum over the contracted axis of the row's entries times the column's. -/
theorem dot_apply (L : FVec Ideal S131072x64 .f32) (R : FVec Ideal S64x64 .f32) (n : Fin 131072) (c : Fin 64) :
    Host.dotGeneral Dd none L R (ix2 n c) = ∑ k : Fin 64, L (ix2 n k) * R (ix2 k c) := by
  show FloatOps.dotGeneral Dd none .single L R (ix2 n c) = _
  rw [Ideal.dotGeneral_apply, ← Equiv.sum_comp (contrEquiv1 Dd 64 rfl rfl) (fun k : Fin 64 => L (ix2 n k) * R (ix2 k c))]
  refine Finset.sum_congr rfl fun q _ => ?_
  have hl : Dd.lhsIdx (ix2 n c) q = ix2 n (contrEquiv1 Dd 64 rfl rfl q) := by
    funext a; refine Fin.ext ?_
    match a with
    | ⟨0, _⟩ => exact lhs_row _ _
    | ⟨1, _⟩ => exact lhs_contr _ _
  have hr : Dd.rhsIdx (ix2 n c) q = ix2 (contrEquiv1 Dd 64 rfl rfl q) c := by
    funext a; refine Fin.ext ?_
    match a with
    | ⟨0, _⟩ => exact rhs_contr _ _
    | ⟨1, _⟩ => exact rhs_col _ _
  rw [hl, hr]

/-- Every row's projected code is the specified one. -/
theorem projected_apply (pe : FVec Ideal S64x64x32x64 .f32) (W : FVec Ideal S64x64 .f32) (b : FVec Ideal S64 .f32)
    (n : Fin 131072) (c : Fin 64) : projected (F := Ideal) pe W b (ix2 n c) = Cert.Spec.proj pe W b n c := by
  unfold projected Cert.Spec.proj
  rw [addf_apply, dot_apply]
  congr 1
  · refine Finset.sum_congr rfl fun k _ => ?_
    rw [gather_voxel pe starts n k (Cert.Spec.vx n) (Cert.Spec.vy n) (Cert.Spec.vz n) (starts0 n) (starts1 n) (starts2 n),
      transpose_ix2_apply]
    rfl
  · rw [broadcastInDim_oneRow_apply]
    exact broadcastInDim_apply _ _ b _ (ix1 c) fun a => match a with | ⟨0, _⟩ => rfl

/-- THE REFERENCE'S RESULT is the specified function of its four arguments. -/
theorem out_eq (feat : FVec Ideal S8x131072x64 .f32) (pe : FVec Ideal S64x64x32x64 .f32) (W : FVec Ideal S64x64 .f32)
    (b : FVec Ideal S64 .f32) : RefTerm.out (F := Ideal) feat pe W b = Cert.Spec.G feat pe W b := by
  funext i
  obtain ⟨β, n, c, rfl⟩ : ∃ (β : Fin 8) (n : Fin 131072) (c : Fin 64), i = ix3 β n c := ⟨i 0, i 1, i 2, eq_ix3 i⟩
  unfold RefTerm.out
  rw [addf_apply]
  show _ = feat (ix3 β n c) + Cert.Spec.proj pe W b n c
  congr 1
  rw [broadcastInDim_apply _ _ _ (ix3 β n c) (ix3 (0 : Fin 1) n c)
      (fun a => match a with | ⟨0, _⟩ => rfl | ⟨1, _⟩ => rfl | ⟨2, _⟩ => rfl),
    broadcastInDim_apply _ _ _ (ix3 (0 : Fin 1) n c) (ix2 n c) (fun a => match a with | ⟨0, _⟩ => rfl | ⟨1, _⟩ => rfl)]
  exact projected_apply pe W b n c

end Cert.ReferenceIdeal.RefValue

end
-- ==== Proof.lean ====
/-
  The certificate's five claims.

  Both programs compute, over the extended reals, `out[β, n, c] = feat[β, n, c] + (Σ k, pe[voxel n, k] · W[c, k] + b[c])`,
  where `voxel n = (n / 2048, n % 2048 / 32, n % 32)` inverts the row-major numbering of the 64 × 64 × 32 voxels.
  The kernel reads the positional codes through a row-major reshape, one block of 8192 rows per grid point, and multiplies
  the block by the transposed weight; the reference gathers each row's code at the voxel coordinates it computes from the
  row number by floored division and remainder, and multiplies all rows at once.  The reshape and the gather read the
  same entry, a matrix product into a zero accumulator is the plain sum at the ideal instance, and the two sums group
  their terms alike, so the results agree index by index; no law that fails at an infinity is used, and the precondition
  is not opened.  The idealization rewrote nothing, so `preserves` is trivial; the frames are the generated ones for the
  two kernel programs and the reference's run with its result dropped.
-/
import proofs.«102138_j22247930593290_1_alg».proof.Defs
import proofs.«102138_j22247930593290_1_alg».proof.Proof.Gen.Kernel
import proofs.«102138_j22247930593290_1_alg».proof.Proof.Gen.Kernel.Skeleton
import proofs.«102138_j22247930593290_1_alg».proof.Proof.Gen.Kernel.Launch
import proofs.«102138_j22247930593290_1_alg».proof.Proof.Gen.Kernel.Points
import proofs.«102138_j22247930593290_1_alg».proof.Proof.Gen.Kernel.Frame
import proofs.«102138_j22247930593290_1_alg».proof.Proof.Gen.KernelIdeal
import proofs.«102138_j22247930593290_1_alg».proof.Proof.Gen.KernelIdeal.Skeleton
import proofs.«102138_j22247930593290_1_alg».proof.Proof.Gen.KernelIdeal.Launch
import proofs.«102138_j22247930593290_1_alg».proof.Proof.Gen.KernelIdeal.Points
import proofs.«102138_j22247930593290_1_alg».proof.Proof.Gen.KernelIdeal.Frame
import proofs.«102138_j22247930593290_1_alg».proof.Proof.Gen.ReferenceIdeal
import proofs.«102138_j22247930593290_1_alg».proof.Proof.Gen.Pre_finite_inputs
import proofs.«102138_j22247930593290_1_alg».proof.Proof.KernelValue
import proofs.«102138_j22247930593290_1_alg».proof.Proof.RefRun
import proofs.«102138_j22247930593290_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both idealized programs end with the specified function of the arguments, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.out_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
